-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S320000 : Shape := ⟨1, ![320000]⟩
abbrev S512x128 : Shape := ⟨2, ![512, 128]⟩
abbrev S128x256 : Shape := ⟨2, ![128, 256]⟩
abbrev S256x20 : Shape := ⟨2, ![256, 20]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S320000 : S_.BroadcastsInDim S320000 (![] : Fin 0 → Fin S320000.rank)
  reducesTo_S320000_S_d0 : S320000.ReducesTo [0] S_
  bcast_S_S512x128 : S_.BroadcastsInDim S512x128 (![] : Fin 0 → Fin S512x128.rank)
  reducesTo_S512x128_S_d0_1 : S512x128.ReducesTo [0, 1] S_
  bcast_S_S128x256 : S_.BroadcastsInDim S128x256 (![] : Fin 0 → Fin S128x256.rank)
  reducesTo_S128x256_S_d0_1 : S128x256.ReducesTo [0, 1] S_
  bcast_S_S256x20 : S_.BroadcastsInDim S256x20 (![] : Fin 0 → Fin S256x20.rank)
  reducesTo_S256x20_S_d0_1 : S256x20.ReducesTo [0, 1] S_

variable [Facts]

def fn_part2 {F : FTy → Type} [FloatOps F] (main_arg6 : IVec S320000 32) (main_v30 : IVec S_ 1) (main_v32 : IVec S320000 1) (main_c_12 : IVec S_ 32) : IVec S_ 1 :=
  let main_v33 : IVec S320000 32 := broadcastInDim S320000 ![] bcast_S_S320000 main_c_12
  let main_v34 : IVec S320000 1 := cmpi .slt main_arg6 main_v33
  let main_v35 : IVec S320000 1 := andi main_v32 main_v34
  let main_c_13 : IVec S_ 1 := constantI S_ 1 1#1
  let main_v36 : IVec S_ 1 := (fun x v => Host.reduce IntOp.andi x v reducesTo_S320000_S_d0 h_S_) main_v35 main_c_13
  let main_v37 : IVec S_ 1 := andi main_v30 main_v36
  main_v37

def fn_part1 {F : FTy → Type} [FloatOps F] (main_arg4 : FVec F S256x20 .f32) (main_arg5 : IVec S320000 32) (main_arg6 : IVec S320000 32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x20 .f32 := Host.absf main_arg4
  let main_cst_6 : FVec F S_ .f32 := constant S_ .f32 0x7F800000#32
  let main_v20 : FVec F S256x20 .f32 := broadcastInDim S256x20 ![] bcast_S_S256x20 main_cst_6
  let main_v21 : IVec S256x20 1 := cmpf .olt main_v19 main_v20
  let main_c_7 : IVec S_ 1 := constantI S_ 1 1#1
  let main_v22 : IVec S_ 1 := (fun x v => Host.reduce IntOp.andi x v reducesTo_S256x20_S_d0_1 h_S_) main_v21 main_c_7
  let main_v23 : IVec S_ 1 := andi main_v18 main_v22
  let main_c_8 : IVec S_ 32 := constantI S_ 32 0#32
  let main_v24 : IVec S320000 32 := broadcastInDim S320000 ![] bcast_S_S320000 main_c_8
  let main_v25 : IVec S320000 1 := cmpi .sge main_arg5 main_v24
  let main_c_9 : IVec S_ 32 := constantI S_ 32 10000#32
  let main_v26 : IVec S320000 32 := broadcastInDim S320000 ![] bcast_S_S320000 main_c_9
  let main_v27 : IVec S320000 1 := cmpi .slt main_arg5 main_v26
  let main_v28 : IVec S320000 1 := andi main_v25 main_v27
  let main_c_10 : IVec S_ 1 := constantI S_ 1 1#1
  let main_v29 : IVec S_ 1 := (fun x v => Host.reduce IntOp.andi x v reducesTo_S320000_S_d0 h_S_) main_v28 main_c_10
  let main_v30 : IVec S_ 1 := andi main_v23 main_v29
  let main_c_11 : IVec S_ 32 := constantI S_ 32 0#32
  let main_v31 : IVec S320000 32 := broadcastInDim S320000 ![] bcast_S_S320000 main_c_11
  let main_v32 : IVec S320000 1 := cmpi .sge main_arg6 main_v31
  let main_c_12 : IVec S_ 32 := constantI S_ 32 10000#32
  fn_part2 (F := F) main_arg6 main_v30 main_v32 main_c_12

def fn {F : FTy → Type} [FloatOps F] (main_arg0 : FVec F S10000x512 .f32) (main_arg1 : FVec F S320000 .f32) (main_arg2 : FVec F S512x128 .f32) (main_arg3 : FVec F S128x256 .f32) (main_arg4 : FVec F S256x20 .f32) (main_arg5 : IVec S320000 32) (main_arg6 : IVec S320000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S320000 .f32 := Host.absf main_arg1
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S10000x512 : Shape := ⟨2, ![10000, 512]⟩
abbrev S320000 : Shape := ⟨1, ![320000]⟩
abbrev S512x128 : Shape := ⟨2, ![512, 128]⟩
abbrev S128x256 : Shape := ⟨2, ![128, 256]⟩
abbrev S256x20 : Shape := ⟨2, ![256, 20]⟩
abbrev S_ : Shape := ⟨0, ![]⟩
abbrev S100000000 : Shape := ⟨1, ![100000000]⟩
abbrev S320000x1 : Shape := ⟨2, ![320000, 1]⟩
abbrev S10000x10000 : Shape := ⟨2, ![10000, 10000]⟩
abbrev S200x10000 : Shape := ⟨2, ![200, 10000]⟩
abbrev S256x128 : Shape := ⟨2, ![256, 128]⟩
abbrev S10000x128 : Shape := ⟨2, ![10000, 128]⟩
abbrev S2000x512 : Shape := ⟨2, ![2000, 512]⟩
abbrev S2000x128 : Shape := ⟨2, ![2000, 128]⟩
abbrev S10000x256 : Shape := ⟨2, ![10000, 256]⟩
abbrev S400x10000 : Shape := ⟨2, ![400, 10000]⟩
abbrev S400x256 : Shape := ⟨2, ![400, 256]⟩
abbrev S400x128 : Shape := ⟨2, ![400, 128]⟩
abbrev S10000x20 : Shape := ⟨2, ![10000, 20]⟩
abbrev S128x10000 : Shape := ⟨2, ![128, 10000]⟩
abbrev S200x128 : Shape := ⟨2, ![200, 128]⟩

abbrev nBuf : Space → Nat
  | .hbm => 38
  | .vmem => 31
  | .smem => 0
  | _ => 0

abbrev bufTy : (tb : Table) → Fin (tcTables nBuf tb) → BufTy
  | .hbm, ⟨0, _⟩ => ⟨S10000x512, .f32⟩
  | .hbm, ⟨1, _⟩ => ⟨S320000, .f32⟩
  | .hbm, ⟨2, _⟩ => ⟨S512x128, .f32⟩
  | .hbm, ⟨3, _⟩ => ⟨S128x256, .f32⟩
  | .hbm, ⟨4, _⟩ => ⟨S256x20, .f32⟩
  | .hbm, ⟨5, _⟩ => ⟨S320000, .i32⟩
  | .hbm, ⟨6, _⟩ => ⟨S320000, .i32⟩
  | .hbm, ⟨7, _⟩ => ⟨S_, .i32⟩
  | .hbm, ⟨8, _⟩ => ⟨S320000, .i32⟩
  | .hbm, ⟨9, _⟩ => ⟨S320000, .i32⟩
  | .hbm, ⟨10, _⟩ => ⟨S320000, .i32⟩
  | .hbm, ⟨11, _⟩ => ⟨S_, .f32⟩
  | .hbm, ⟨12, _⟩ => ⟨S100000000, .f32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S100000000, .f32⟩
  | .hbm, ⟨22, _⟩ => ⟨S10000x10000, .f32⟩
  | .hbm, ⟨23, _⟩ => ⟨S10000x10000, .bf16⟩
  | .hbm, ⟨24, _⟩ => ⟨S10000x512, .bf16⟩
  | .hbm, ⟨25, _⟩ => ⟨S512x128, .bf16⟩
  | .hbm, ⟨26, _⟩ => ⟨S128x256, .bf16⟩
  | .hbm, ⟨27, _⟩ => ⟨S_, .i32⟩
  | .hbm, ⟨28, _⟩ => ⟨S_, .f32⟩
  | .hbm, ⟨29, _⟩ => ⟨S256x128, .f32⟩
  | .hbm, ⟨30, _⟩ => ⟨S256x128, .bf16⟩
  | .hbm, ⟨31, _⟩ => ⟨S10000x128, .bf16⟩
  | .hbm, ⟨32, _⟩ => ⟨S10000x256, .bf16⟩
  | .hbm, ⟨33, _⟩ => ⟨S10000x128, .bf16⟩
  | .hbm, ⟨34, _⟩ => ⟨S10000x128, .f32⟩
  | .hbm, ⟨35, _⟩ => ⟨S10000x20, .f32⟩
  | .hbm, ⟨36, _⟩ => ⟨S128x10000, .f32⟩
  | .hbm, ⟨37, _⟩ => ⟨S10000x10000, .f32⟩
  | .local _ .vmem, ⟨0, _⟩ => ⟨S200x10000, .f32⟩
  | .local _ .vmem, ⟨1, _⟩ => ⟨S200x10000, .f32⟩
  | .local _ .vmem, ⟨2, _⟩ => ⟨S200x10000, .bf16⟩
  | .local _ .vmem, ⟨3, _⟩ => ⟨S200x10000, .bf16⟩
  | .local _ .vmem, ⟨4, _⟩ => ⟨S2000x512, .bf16⟩
  | .local _ .vmem, ⟨5, _⟩ => ⟨S2000x512, .bf16⟩
  | .local _ .vmem, ⟨6, _⟩ => ⟨S512x128, .bf16⟩
  | .local _ .vmem, ⟨7, _⟩ => ⟨S2000x128, .bf16⟩
  | .local _ .vmem, ⟨8, _⟩ => ⟨S2000x128, .bf16⟩
  | .local _ .vmem, ⟨9, _⟩ => ⟨S400x10000, .bf16⟩
  | .local _ .vmem, ⟨10, _⟩ => ⟨S400x10000, .bf16⟩
  | .local _ .vmem, ⟨11, _⟩ => ⟨S10000x128, .bf16⟩
  | .local _ .vmem, ⟨12, _⟩ => ⟨S128x256, .bf16⟩
  | .local _ .vmem, ⟨13, _⟩ => ⟨S400x256, .bf16⟩
  | .local _ .vmem, ⟨14, _⟩ => ⟨S400x256, .bf16⟩
  | .local _ .vmem, ⟨15, _⟩ => ⟨S400x10000, .bf16⟩
  | .local _ .vmem, ⟨16, _⟩ => ⟨S400x10000, .bf16⟩
  | .local _ .vmem, ⟨17, _⟩ => ⟨S10000x256, .bf16⟩
  | .local _ .vmem, ⟨18, _⟩ => ⟨S256x128, .bf16⟩
  | .local _ .vmem, ⟨19, _⟩ => ⟨S400x128, .bf16⟩
  | .local _ .vmem, ⟨20, _⟩ => ⟨S400x128, .bf16⟩
  | .local _ .vmem, ⟨21, _⟩ => ⟨S400x10000, .bf16⟩
  | .local _ .vmem, ⟨22, _⟩ => ⟨S400x10000, .bf16⟩
  | .local _ .vmem, ⟨23, _⟩ => ⟨S10000x128, .bf16⟩
  | .local _ .vmem, ⟨24, _⟩ => ⟨S400x128, .f32⟩
  | .local _ .vmem, ⟨25, _⟩ => ⟨S400x128, .f32⟩
  | .local _ .vmem, ⟨26, _⟩ => ⟨S200x128, .f32⟩
  | .local _ .vmem, ⟨27, _⟩ => ⟨S200x128, .f32⟩
  | .local _ .vmem, ⟨28, _⟩ => ⟨S128x10000, .f32⟩
  | .local _ .vmem, ⟨29, _⟩ => ⟨S200x10000, .f32⟩
  | .local _ .vmem, ⟨30, _⟩ => ⟨S200x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x10000 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S200x10000 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S320000 : S_.BroadcastsInDim S320000 (![] : Fin 0 → Fin S320000.rank)
  bcast_S_S100000000 : S_.BroadcastsInDim S100000000 (![] : Fin 0 → Fin S100000000.rank)
  bcast_S320000_S320000x1_0 : S320000.BroadcastsInDim S320000x1 (![0] : Fin 1 → Fin S320000x1.rank)
  shapeCasts_S100000000_S10000x10000 : S100000000.ShapeCasts S10000x10000
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  pads_S256x20_S256x128_000_01080 : S256x20.Pads (![0, 0] : Fin 2 → Nat) ![0, 108] ![0, 0] S256x128
  h_S_ : 0 < S_.numel
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  slices_S10000x128_S10000x20_0_0 : S10000x128.Slices ![0, 0] S10000x20
  transposes_S10000x128_S128x10000_1_0 : S10000x128.Transposes [1, 0] S128x10000
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  scatter_S100000000_S320000x1_S320000_n_0_0_1_wf : ScatterDims.WF S100000000 S320000x1 S320000 [] [0] [0] 1
  dot_S2000x512_S512x128_S2000x128_1_0_0_1_n_n_wf : DotDims.WF S2000x512 S512x128 S2000x128 [1] [0] [0] [1] [] []
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  dot_S200x128_S128x10000_S200x10000_1_0_0_1_n_n_wf : DotDims.WF S200x128 S128x10000 S200x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .bf16 = 32 ∨ (Rect.block (s := S10000x10000) S200x10000.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .bf16 = 32 ∨ (Rect.block (s := S10000x512) S2000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .bf16 = 32 ∨ (Rect.block (s := S512x128) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .bf16 = 32 ∨ (Rect.block (s := S10000x128) S2000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .bf16 = 32 ∨ (Rect.block (s := S128x256) S128x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x256.size a ≤ S10000x256.size a
  hwx2_3 : ∀ i : grid2.Coords, EltTy.bits .bf16 = 32 ∨ (Rect.block (s := S10000x256) S400x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .bf16 = 32 ∨ (Rect.block (s := S256x128) S256x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S10000x128.size a
  hwx3_3 : ∀ i : grid3.Coords, EltTy.bits .bf16 = 32 ∨ (Rect.block (s := S10000x128) S400x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x128.size a ≤ S10000x128.size a
  hwx4_2 : ∀ i : grid4.Coords, EltTy.bits .f32 = 32 ∨ (Rect.block (s := S10000x128) S400x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x128.size a ≤ S10000x128.size a
  hwx5_0 : ∀ i : grid5.Coords, EltTy.bits .f32 = 32 ∨ (Rect.block (s := S10000x128) S200x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x10000.size a ≤ S128x10000.size a
  hwx5_1 : ∀ i : grid5.Coords, EltTy.bits .f32 = 32 ∨ (Rect.block (s := S128x10000) S128x10000.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S200x10000.size a ≤ S10000x10000.size a
  hwx5_2 : ∀ i : grid5.Coords, EltTy.bits .f32 = 32 ∨ (Rect.block (s := S10000x10000) S200x10000.size (cc5_transform_2 i) (hinb5_2 i)).WholeWords (EltTy.packing .f32)

variable [Facts₀]

def scatter_S100000000_S320000x1_S320000_n_0_0_1 : ScatterDims S100000000 S320000x1 S320000 where
  updateWindowDims := []
  insertedWindowDims := [0]
  scatterDimsToOperandDims := [0]
  indexVectorDim := 1
  wf := scatter_S100000000_S320000x1_S320000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S200x128_S128x10000_S200x10000_1_0_0_1_n_n : DotDims S200x128 S128x10000 S200x10000 where
  lhsContracting := [1]
  rhsContracting := [0]
  lhsNonContracting := [0]
  rhsNonContracting := [1]
  lhsBatch := []
  rhsBatch := []
  wf := dot_S200x128_S128x10000_S200x10000_1_0_0_1_n_n_wf

abbrev win0_0 : Pipeline.Window sig grid0 :=
  Pipeline.Window.ofSpec (Memref.whole main_v11) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S200x10000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v13) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S400x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S400x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v12) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21) S400x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v21) S200x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S128x10000.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v24) S200x10000.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000x512 : Shape := ⟨2, ![10000, 512]⟩
abbrev S320000 : Shape := ⟨1, ![320000]⟩
abbrev S512x128 : Shape := ⟨2, ![512, 128]⟩
abbrev S128x256 : Shape := ⟨2, ![128, 256]⟩
abbrev S256x20 : Shape := ⟨2, ![256, 20]⟩
abbrev S10000x128 : Shape := ⟨2, ![10000, 128]⟩
abbrev S320000x1 : Shape := ⟨2, ![320000, 1]⟩
abbrev S_ : Shape := ⟨0, ![]⟩
abbrev S320000x128 : Shape := ⟨2, ![320000, 128]⟩
abbrev S10000x256 : Shape := ⟨2, ![10000, 256]⟩
abbrev S320000x256 : Shape := ⟨2, ![320000, 256]⟩
abbrev S10000x20 : Shape := ⟨2, ![10000, 20]⟩
abbrev S320000x20 : Shape := ⟨2, ![320000, 20]⟩
abbrev S20x10000 : Shape := ⟨2, ![20, 10000]⟩
abbrev S10000x10000 : Shape := ⟨2, ![10000, 10000]⟩

abbrev nBuf : Space → Nat
  | .hbm => 74
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S320000, .f32⟩
  | .hbm, ⟨2, _⟩ => ⟨S512x128, .f32⟩
  | .hbm, ⟨3, _⟩ => ⟨S128x256, .f32⟩
  | .hbm, ⟨4, _⟩ => ⟨S256x20, .f32⟩
  | .hbm, ⟨5, _⟩ => ⟨S320000, .i32⟩
  | .hbm, ⟨6, _⟩ => ⟨S320000, .i32⟩
  | .hbm, ⟨7, _⟩ => ⟨S10000x128, .f32⟩
  | .hbm, ⟨8, _⟩ => ⟨S320000x1, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x128, .f32⟩
  | .hbm, ⟨18, _⟩ => ⟨S320000x128, .f32⟩
  | .hbm, ⟨19, _⟩ => ⟨S320000x128, .f32⟩
  | .hbm, ⟨20, _⟩ => ⟨S_, .f32⟩
  | .hbm, ⟨21, _⟩ => ⟨S10000x128, .f32⟩
  | .hbm, ⟨22, _⟩ => ⟨S320000x1, .i32⟩
  | .hbm, ⟨23, _⟩ => ⟨S10000x128, .f32⟩
  | .hbm, ⟨24, _⟩ => ⟨S_, .f32⟩
  | .hbm, ⟨25, _⟩ => ⟨S10000x128, .f32⟩
  | .hbm, ⟨26, _⟩ => ⟨S10000x128, .f32⟩
  | .hbm, ⟨27, _⟩ => ⟨S10000x256, .f32⟩
  | .hbm, ⟨28, _⟩ => ⟨S320000x1, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x256, .f32⟩
  | .hbm, ⟨38, _⟩ => ⟨S320000x256, .f32⟩
  | .hbm, ⟨39, _⟩ => ⟨S320000x256, .f32⟩
  | .hbm, ⟨40, _⟩ => ⟨S_, .f32⟩
  | .hbm, ⟨41, _⟩ => ⟨S10000x256, .f32⟩
  | .hbm, ⟨42, _⟩ => ⟨S320000x1, .i32⟩
  | .hbm, ⟨43, _⟩ => ⟨S10000x256, .f32⟩
  | .hbm, ⟨44, _⟩ => ⟨S_, .f32⟩
  | .hbm, ⟨45, _⟩ => ⟨S10000x256, .f32⟩
  | .hbm, ⟨46, _⟩ => ⟨S10000x256, .f32⟩
  | .hbm, ⟨47, _⟩ => ⟨S10000x20, .f32⟩
  | .hbm, ⟨48, _⟩ => ⟨S320000x1, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S320000x20, .f32⟩
  | .hbm, ⟨58, _⟩ => ⟨S320000x20, .f32⟩
  | .hbm, ⟨59, _⟩ => ⟨S320000x20, .f32⟩
  | .hbm, ⟨60, _⟩ => ⟨S_, .f32⟩
  | .hbm, ⟨61, _⟩ => ⟨S10000x20, .f32⟩
  | .hbm, ⟨62, _⟩ => ⟨S320000x1, .i32⟩
  | .hbm, ⟨63, _⟩ => ⟨S10000x20, .f32⟩
  | .hbm, ⟨64, _⟩ => ⟨S20x10000, .f32⟩
  | .hbm, ⟨65, _⟩ => ⟨S10000x10000, .f32⟩
  | .hbm, ⟨66, _⟩ => ⟨S10000x10000, .f32⟩
  | .hbm, ⟨67, _⟩ => ⟨S10000x10000, .f32⟩
  | .hbm, ⟨68, _⟩ => ⟨S_, .f32⟩
  | .hbm, ⟨69, _⟩ => ⟨S10000x10000, .f32⟩
  | .hbm, ⟨70, _⟩ => ⟨S10000x10000, .f32⟩
  | .hbm, ⟨71, _⟩ => ⟨S_, .f32⟩
  | .hbm, ⟨72, _⟩ => ⟨S10000x10000, .f32⟩
  | .hbm, ⟨73, _⟩ => ⟨S10000x10000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S320000x1_S320000x20_0_1 : S320000x1.BroadcastsInDim S320000x20 (![0, 1] : Fin 2 → Fin S320000x20.rank)
  bcast_S_S10000x20 : S_.BroadcastsInDim S10000x20 (![] : Fin 0 → Fin S10000x20.rank)
  transposes_S10000x20_S20x10000_1_0 : S10000x20.Transposes [1, 0] S20x10000
  bcast_S_S10000x10000 : S_.BroadcastsInDim S10000x10000 (![] : Fin 0 → Fin S10000x10000.rank)
  dot_S10000x512_S512x128_S10000x128_1_0_0_1_n_n_wf : DotDims.WF S10000x512 S512x128 S10000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x256_S10000x256_1_0_0_1_n_n_wf : DotDims.WF S10000x128 S128x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x20_S10000x20_1_0_0_1_n_n_wf : DotDims.WF S10000x256 S256x20 S10000x20 [1] [0] [0] [1] [] []
  gather_S10000x20_S320000x1_S320000x20_1_0_n_n_0_1_120_wf : GatherDims.WF S10000x20 S320000x1 S320000x20 [1] [0] [] [0] [] 1 ![1, 20]
  scatter_S10000x20_S320000x1_S320000x20_1_0_0_1_wf : ScatterDims.WF S10000x20 S320000x1 S320000x20 [1] [0] [0] 1
  dot_S10000x20_S20x10000_S10000x10000_1_0_0_1_n_n_wf : DotDims.WF S10000x20 S20x10000 S10000x10000 [1] [0] [0] [1] [] []

variable [Facts₀]

def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x20_S10000x20_1_0_0_1_n_n : DotDims S10000x256 S256x20 S10000x20 where
  lhsContracting := [1]
  rhsContracting := [0]
  lhsNonContracting := [0]
  rhsNonContracting := [1]
  lhsBatch := []
  rhsBatch := []
  wf := dot_S10000x256_S256x20_S10000x20_1_0_0_1_n_n_wf
def gather_S10000x20_S320000x1_S320000x20_1_0_n_n_0_1_120 : GatherDims S10000x20 S320000x1 S320000x20 where
  offsetDims := [1]
  collapsedSliceDims := [0]
  operandBatchingDims := []
  startIndicesBatchingDims := []
  startIndexMap := [0]
  indexVectorDim := 1
  sliceSizes := ![1, 20]
  wf := gather_S10000x20_S320000x1_S320000x20_1_0_n_n_0_1_120_wf
def scatter_S10000x20_S320000x1_S320000x20_1_0_0_1 : ScatterDims S10000x20 S320000x1 S320000x20 where
  updateWindowDims := [1]
  insertedWindowDims := [0]
  scatterDimsToOperandDims := [0]
  indexVectorDim := 1
  wf := scatter_S10000x20_S320000x1_S320000x20_1_0_0_1_wf
def dot_S10000x20_S20x10000_S10000x10000_1_0_0_1_n_n : DotDims S10000x20 S20x10000 S10000x10000 where
  lhsContracting := [1]
  rhsContracting := [0]
  lhsNonContracting := [0]
  rhsNonContracting := [1]
  lhsBatch := []
  rhsBatch := []
  wf := dot_S10000x20_S20x10000_S10000x10000_1_0_0_1_n_n_wf

class Facts : Prop extends Facts₀ where

variable [Facts]
-- ==== Proof.Spec.lean ====
/-
  The mathematics of a three-layer graph convolution over a graph given as an edge list, on the extended reals.

  A graph on `N` nodes has `E` weighted edges; edge `e` goes from node `src e` to node `dst e` with weight `ev e`.
  Aggregating a feature matrix `S : [N, d]` along the edges gives `agg S`, whose row `r` is the sum over the edges
  into `r` of `ev e` times row `src e` of `S`.  The same aggregation is the product `A · S` with the dense adjacency
  matrix `A`, whose entry `(r, c)` is the sum of the weights of the edges from `c` to `r`.  The two agree when the
  weights and the features are real numbers: the step is the distributive law `(∑ w) · s = ∑ (w · s)`, which fails on
  the extended reals at infinities of opposite signs, and a regrouping of the edges by their source.

  The network is `z = agg (relu (agg (relu (agg (x W1))) W2) W3)` and `σ(z zᵀ)`.  Padding `W3` with zero columns pads
  `z` with zero columns, and zero columns add nothing to the inner products `z zᵀ`.
-/
import Idealize.ShloMosaic.PureOps.Ideal

noncomputable section

open scoped BigOperators

namespace Gcn

open Idealize.ShloMosaic

/-- A matrix of extended reals. -/
abbrev Mat (n m : Nat) := Fin n → Fin m → EReal

/-- The matrix product. -/
def mmul {n k m : Nat} (X : Mat n k) (W : Mat k m) : Mat n m := fun i j => ∑ l, X i l * W l j

/-- The positive part, entry by entry. -/
def relu {n m : Nat} (X : Mat n m) : Mat n m := fun i j => max (X i j) 0

section Edges
variable {N E : Nat} (dst src : Fin E → Fin N) (ev : Fin E → EReal)

/-- Aggregation along the edges: row `r` of the result is `∑ ev e · S (src e)` over the edges `e` into `r`. -/
def agg {d : Nat} (S : Mat N d) : Mat N d :=
  fun r q => ∑ e ∈ Finset.univ.filter (fun e => dst e = r), ev e * S (src e) q

/-- The dense adjacency matrix: entry `(r, c)` sums the weights of the edges from `c` to `r`. -/
def adj : Mat N N := fun r c => ∑ e ∈ Finset.univ.filter (fun e => dst e = r ∧ src e = c), ev e

end Edges

/-! ## Real entries -/

/-- An extended real that is a real number. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- The sum of real numbers, taken in the extended reals, is their real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem mmul_isReal {n k m : Nat} {X : Mat n k} {W : Mat k m} (hX : ∀ i l, IsReal (X i l)) (hW : ∀ l j, IsReal (W l j))
    (i : Fin n) (j : Fin m) : IsReal (mmul X W i j) :=
  isReal_sum _ _ fun l _ => (hX i l).mul (hW l j)

theorem relu_isReal {n m : Nat} {X : Mat n m} (hX : ∀ i j, IsReal (X i j)) (i : Fin n) (j : Fin m) : IsReal (relu X i j) :=
  (hX i j).max isReal_zero

theorem agg_isReal {N E d : Nat} (dst src : Fin E → Fin N) {ev : Fin E → EReal} {S : Mat N d} (hev : ∀ e, IsReal (ev e))
    (hS : ∀ c q, IsReal (S c q)) (r : Fin N) (q : Fin d) : IsReal (agg dst src ev S r q) :=
  isReal_sum _ _ fun e _ => (hev e).mul (hS (src e) q)

/-! ## The aggregation is the product with the dense adjacency matrix -/

/-- Over the reals: `∑_c (∑_{e : c → r} w e) · s c = ∑_{e → r} w e · s (src e)`: distribute, then regroup the edges
    into `r` by their source. -/
theorem adj_mul_real {N E : Nat} (dst src : Fin E → Fin N) (w : Fin E → ℝ) (s : Fin N → ℝ) (r : Fin N) :
    ∑ c, (∑ e ∈ Finset.univ.filter (fun e => dst e = r ∧ src e = c), w e) * s c
      = ∑ e ∈ Finset.univ.filter (fun e => dst e = r), w e * s (src e) := by
  rw [← Finset.sum_fiberwise (Finset.univ.filter (fun e => dst e = r)) src (fun e => w e * s (src e))]
  refine Finset.sum_congr rfl fun c _ => ?_
  rw [Finset.sum_mul, Finset.filter_filter]
  refine Finset.sum_congr rfl fun e he => ?_
  rw [(Finset.mem_filter.mp he).2.2]

/-- Over the extended reals, for real weights and real features. -/
theorem mmul_adj {N E d : Nat} (dst src : Fin E → Fin N) {ev : Fin E → EReal} {S : Mat N d} (hev : ∀ e, IsReal (ev e))
    (hS : ∀ c q, IsReal (S c q)) : mmul (adj dst src ev) S = agg dst src ev S := by
  choose w hw using hev
  choose s hs using hS
  funext r q
  unfold mmul adj agg
  simp only [hw, hs]
  have h1 : ∀ c, (∑ e ∈ Finset.univ.filter (fun e => dst e = r ∧ src e = c), ((w e : ℝ) : EReal)) * ((s c q : ℝ) : EReal)
      = (((∑ e ∈ Finset.univ.filter (fun e => dst e = r ∧ src e = c), w e) * s c q : ℝ) : EReal) := fun c => by
    rw [coe_sum, ← EReal.coe_mul]
  have h2 : ∀ e, ((w e : ℝ) : EReal) * ((s (src e) q : ℝ) : EReal) = ((w e * s (src e) q : ℝ) : EReal) := fun e =>
    (EReal.coe_mul _ _).symm
  simp only [h1, h2]
  rw [coe_sum, coe_sum, adj_mul_real dst src w (fun c => s c q) r]

/-! ## Zero columns -/

/-- A matrix of `a` columns widened to `b` columns by zero columns on the right. -/
def padCols {k a : Nat} (b : Nat) (W : Mat k a) : Mat k b := fun l q => if h : q.val < a then W l ⟨q.val, h⟩ else 0

theorem padCols_isReal {k a b : Nat} {W : Mat k a} (hW : ∀ l j, IsReal (W l j)) (l : Fin k) (q : Fin b) :
    IsReal (padCols b W l q) := by
  unfold padCols; split
  · exact hW _ _
  · exact isReal_zero

/-- A product with zero columns on the right of the second factor has zero columns there. -/
theorem mmul_padCols {n k a b : Nat} (X : Mat n k) (W : Mat k a) : mmul X (padCols b W) = padCols b (mmul X W) := by
  funext i q
  unfold mmul padCols
  split
  · rfl
  · simp

/-- Aggregation keeps zero columns. -/
theorem agg_padCols {N E a b : Nat} (dst src : Fin E → Fin N) (ev : Fin E → EReal) (S : Mat N a) :
    agg dst src ev (padCols b S) = padCols b (agg dst src ev S) := by
  funext r q
  unfold agg padCols
  split
  · rfl
  · simp

/-- Zero columns add nothing to the inner product of two rows. -/
theorem gram_padCols {n a c : Nat} (Z : Mat n a) (i j : Fin n) :
    ∑ k : Fin (a + c), padCols (a + c) Z i k * padCols (a + c) Z j k = ∑ k : Fin a, Z i k * Z j k := by
  rw [Fin.sum_univ_add]
  have h2 : ∀ k : Fin c, padCols (a + c) Z i (Fin.natAdd a k) * padCols (a + c) Z j (Fin.natAdd a k) = 0 := fun k => by
    unfold padCols
    rw [dif_neg (by simp)]
    exact zero_mul _
  have h1 : ∀ k : Fin a, padCols (a + c) Z i (Fin.castAdd c k) * padCols (a + c) Z j (Fin.castAdd c k) = Z i k * Z j k :=
    fun k => by
      unfold padCols
      rw [dif_pos (by simp), dif_pos (by simp)]
      rfl
  simp only [h1, h2, Finset.sum_const_zero, add_zero]

/-! ## The network -/

section Net
variable {N E : Nat} (dst src : Fin E → Fin N) (ev : Fin E → EReal)
  (x : Mat N 512) (W1 : Mat 512 128) (W2 : Mat 128 256) (W3 : Mat 256 20)

/-- The hidden features after two layers, by edge aggregation. -/
def hidden : Mat N 256 := relu (agg dst src ev (mmul (relu (agg dst src ev (mmul x W1))) W2))

/-- The node embeddings, by edge aggregation. -/
def embed : Mat N 20 := agg dst src ev (mmul (hidden dst src ev x W1 W2) W3)

/-- The same network with the dense adjacency matrix, and `W3` widened by zero columns. -/
def denseEmbed : Mat N 128 :=
  mmul (adj dst src ev) (mmul (relu (mmul (adj dst src ev) (mmul (relu (mmul (adj dst src ev) (mmul x W1))) W2))) (padCols 128 W3))

/-- The logistic function of the inner products of the rows. -/
def gramSigmoid {n a : Nat} (Z : Mat n a) : Mat n n := fun i j => Ideal.logistic (∑ k, Z i k * Z j k)

variable {ev x W1 W2 W3}

/-- For real inputs the dense network is the edge network, with zero columns on the right. -/
theorem denseEmbed_eq (hev : ∀ e, IsReal (ev e)) (hx : ∀ i j, IsReal (x i j)) (h1 : ∀ i j, IsReal (W1 i j))
    (h2 : ∀ i j, IsReal (W2 i j)) (h3 : ∀ i j, IsReal (W3 i j)) :
    denseEmbed dst src ev x W1 W2 W3 = padCols 128 (embed dst src ev x W1 W2 W3) := by
  unfold denseEmbed embed hidden
  have r1 := mmul_isReal hx h1
  rw [mmul_adj dst src hev r1]
  have r2 := mmul_isReal (relu_isReal (agg_isReal dst src hev r1)) h2
  rw [mmul_adj dst src hev r2]
  have r3 := mmul_isReal (relu_isReal (agg_isReal dst src hev r2)) (padCols_isReal (b := 128) h3)
  rw [mmul_adj dst src hev r3, mmul_padCols, agg_padCols]

/-- … and the two logistic inner-product matrices agree. -/
theorem gramSigmoid_denseEmbed (hev : ∀ e, IsReal (ev e)) (hx : ∀ i j, IsReal (x i j)) (h1 : ∀ i j, IsReal (W1 i j))
    (h2 : ∀ i j, IsReal (W2 i j)) (h3 : ∀ i j, IsReal (W3 i j)) :
    gramSigmoid (denseEmbed dst src ev x W1 W2 W3) = gramSigmoid (embed dst src ev x W1 W2 W3) := by
  funext i j
  unfold gramSigmoid
  rw [denseEmbed_eq dst src hev hx h1 h2 h3]
  exact congrArg Ideal.logistic (gram_padCols (a := 20) (c := 108) _ i j)

end Net

end Gcn

end
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.Iface.lean ====
/-
  The vocabulary shared by the two sides of the bridge: a rank-2 array read as a matrix, an edge list's endpoint
  column read as nodes, and what the precondition says of the inputs (real entries, endpoints in range).
-/
import proofs.«400994_j82781199663862_3_alg».proof.Proof.Spec
import proofs.«400994_j82781199663862_3_alg».proof.Proof.LibRowOps
import Idealize.ShloMosaic.Lib.ValueIdx

noncomputable section

namespace Gcn

open Idealize.ShloMosaic Idealize.ShloMosaic.ValueIdx

/-- A rank-2 array as a matrix. -/
def asMat {n m : Nat} (f : (⟨2, ![n, m]⟩ : Shape).Idx → EReal) : Mat n m := fun a b => f (ix2 a b)

/-- The node a 32-bit word names: read signed, clamped into the 10000 nodes (the identity on words in range). -/
def node (b : BitVec 32) : Fin 10000 := RowOps.clampRow 10000 (by decide) b

/-- One endpoint of each of the 320000 edges. -/
def nodes (w : (⟨1, ![320000]⟩ : Shape).Idx → BitVec 32) : Fin 320000 → Fin 10000 := fun e => node (w (ix1 e))

/-- The weight of each edge. -/
def weights (v : (⟨1, ![320000]⟩ : Shape).Idx → EReal) : Fin 320000 → EReal := fun e => v (ix1 e)

/-- Every endpoint word names a node: as a signed number it lies in `[0, 10000)`. -/
def InRange (w : (⟨1, ![320000]⟩ : Shape).Idx → BitVec 32) : Prop :=
  ∀ e : Fin 320000, 0 ≤ (w (ix1 e)).toInt ∧ (w (ix1 e)).toInt < 10000

/-- Every entry is a real number. -/
def AllReal {s : Shape} (f : s.Idx → EReal) : Prop := ∀ i, IsReal (f i)

theorem node_val {b : BitVec 32} (h : 0 ≤ b.toInt ∧ b.toInt < 10000) : ((node b).val : Int) = b.toInt := by
  unfold node RowOps.clampRow
  show ((min b.toInt.toNat (10000 - 1) : Nat) : Int) = b.toInt
  omega

theorem asMat_isReal {n m : Nat} {f : (⟨2, ![n, m]⟩ : Shape).Idx → EReal} (h : AllReal f) (i : Fin n) (j : Fin m) :
    IsReal (asMat f i j) := h _

theorem weights_isReal {v : (⟨1, ![320000]⟩ : Shape).Idx → EReal} (h : AllReal v) (e : Fin 320000) : IsReal (weights v e) := h _

end Gcn

end
-- ==== Proof.LibFlatScatter.lean ====
/-
  A scatter-add into a flat array, read at an index, and two bounded words combined into one flat position.

  A scatter-add of updates `u : [E]` at a column `idx : [E, 1]` of positions into a flat array `x : [M]` gives `[M]`:
  entry `i` of the result is entry `i` of `x` plus every update `e` whose position, read signed and not clamped, is
  `i`; an update whose position is out of range is dropped. (The rank-1 companion of the row scatter-add of a matrix:
  here the one operand axis is the scattered one, so an update is a single scalar and has no window coordinate.)
  A dense matrix built this way addresses cell `(r, c)` by the flat position `r · n + c`; for 32-bit words `x`, `y`
  in `[0, 10000)` the position `x · 10000 + y` is computed without wrapping.
-/
import Idealize.ShloMosaic.PureOps.Ideal
import Idealize.ShloMosaic.Lib.ValueIdx
import Idealize.ShloMosaic.Lib.ValueIdxRank1

noncomputable section

open scoped BigOperators

/-! ## A scatter-add into a flat array, read at an index

  A scatter-add of updates `u : [E]` at a column `idx : [E, 1]` of positions into a flat array `x : [M]` adds to entry
  `i` every update `e` whose position, read signed and not clamped, is `i`; an update whose position is out of range
  is dropped. -/

namespace FlatScatter

open Idealize.ShloMosaic Idealize.ShloMosaic.ValueIdx

/-- The dimension numbers of `x.at[idx].add(u)` over a flat array: operand `[M]`, scatter indices `[E, 1]`, updates
    `[E]` (no window axis: every update is one scalar). -/
abbrev scatterDims (M E : Nat) (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

variable {M E w : Nat} (wf : ScatterDims.WF ⟨1, ![M]⟩ ⟨2, ![E, 1]⟩ ⟨1, ![E]⟩ [] [0] [0] 1)
  (idx : IVec ⟨2, ![E, 1]⟩ w) (e : Fin E)

/-- Update `e` starts at the position its index names, read signed and not clamped … -/
theorem start_eq : (scatterDims M E wf).start (ix1 e) idx 0 = (idx (ix2 e 0)).toInt := by
  unfold ScatterDims.start
  rw [dif_pos (show (0 : Fin 1) ∈ (scatterDims M E wf).scatterDimsToOperandDims from List.mem_singleton.mpr rfl)]
  have hsi : (scatterDims M E wf).siIdx (ix1 e) ⟨List.idxOf (0 : Fin 1) (scatterDims M E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and has no window coordinate: the one operand axis is inserted. -/
theorem window_eq : (scatterDims M E wf).window (ix1 e) 0 = 0 := by
  unfold ScatterDims.window
  rw [dif_neg (show (0 : Fin 1) ∉ (scatterDims M E wf).sKept from by
    show (0 : Fin 1) ∉ (List.finRange 1).filter (fun a => a ∉ [(0 : Fin 1)]); decide)]

/-- Update `e` lands on entry `i` exactly when its index, read signed, is `i`. -/
theorem resultIdx?_eq_some_iff (i : Fin M) :
    (scatterDims M E wf).resultIdx? (ix1 e) idx = some (ix1 i) ↔ (idx (ix2 e 0)).toInt = (i.val : Int) := by
  unfold ScatterDims.resultIdx?
  have hi := i.isLt
  split
  · rename_i h
    rw [Option.some.injEq]
    constructor
    · intro hf
      have h0 := congrArg (fun f : (⟨1, ![M]⟩ : Shape).Idx => (f 0).val) hf
      simp only [start_eq, window_eq] at h0
      have hh := (h 0).1
      simp only [start_eq, window_eq] at hh
      have : ((idx (ix2 e 0)).toInt + ((0 : Nat) : Int)).toNat = i.val := h0
      omega
    · intro hs
      funext a
      refine Fin.ext ?_
      match a with
      | ⟨0, _⟩ =>
        show ((scatterDims M E wf).start (ix1 e) idx 0 + ((scatterDims M E wf).window (ix1 e) 0 : Nat)).toNat = i.val
        rw [start_eq, window_eq, hs]; omega
  · rename_i h
    constructor
    · intro hf; exact absurd hf (by simp)
    · intro hs
      refine absurd (fun a => ?_) h
      match a with
      | ⟨0, _⟩ =>
        show 0 ≤ (scatterDims M E wf).start (ix1 e) idx 0 + ((scatterDims M E wf).window (ix1 e) 0 : Nat)
          ∧ (scatterDims M E wf).start (ix1 e) idx 0 + ((scatterDims M E wf).window (ix1 e) 0 : Nat) < (M : Int)
        rw [start_eq, window_eq, hs]; omega

/-- Entry `i` of the flat scatter-add over the extended reals: the operand's entry plus the sum of the updates whose
    index is `i`. -/
theorem scatterAdd_apply {φ : FTy} (x : FVec Ideal ⟨1, ![M]⟩ φ) (upd : FVec Ideal ⟨1, ![E]⟩ φ) (i : Fin M) :
    Host.scatterAdd (F := Ideal) (scatterDims M E wf) x idx upd (ix1 i)
      = x (ix1 i) + ∑ e ∈ Finset.univ.filter (fun e : Fin E => (idx (ix2 e 0)).toInt = (i.val : Int)), upd (ix1 e) := by
  unfold Host.scatterAdd
  rw [Ideal.hostScatterAdd_def]
  unfold Ideal.hostScatterAdd
  congr 1
  rw [Finset.sum_filter, ← Equiv.sum_comp (idxEquiv1 (n := E)).symm, Finset.sum_filter]
  refine Finset.sum_congr rfl fun e _ => ?_
  show (if (scatterDims M E wf).resultIdx? (ix1 e) idx = some (ix1 i) then upd (ix1 e) else 0) = _
  simp only [resultIdx?_eq_some_iff]

end FlatScatter

/-! ## Two endpoint words as one flat position -/

namespace FlatWord

/-- Two words in `[0, 10000)` combine to `x · 10000 + y` without wrapping: the value stays below `10^8 < 2^31`. -/
theorem toInt_flat (x y : BitVec 32) (hx : 0 ≤ x.toInt ∧ x.toInt < 10000) (hy : 0 ≤ y.toInt ∧ y.toInt < 10000) :
    (x * 10000#32 + y).toInt = x.toInt * 10000 + y.toInt := by
  have h1 : (10000#32 : BitVec 32).toInt = 10000 := by decide
  have hm : (x * 10000#32).toInt = x.toInt * 10000 := by
    rw [BitVec.toInt_mul, h1]
    exact Int.bmod_eq_of_le_mul_two (by omega) (by omega)
  rw [BitVec.toInt_add, hm]
  exact Int.bmod_eq_of_le_mul_two (by omega) (by omega)

end FlatWord

end
-- ==== Proof.KHost.lean ====
/-
  The host operations of the kernel program between its regions, read index by index: the dense adjacency matrix built by
  a flat-index scatter-add, the operands' changes of format, the zero-padding of the last weight matrix, and the slice
  and the transpose of the padded embeddings.
-/
import proofs.«400994_j82781199663862_3_alg».proof.Defs
import proofs.«400994_j82781199663862_3_alg».proof.Proof.Gen.KernelIdeal.Frame
import proofs.«400994_j82781199663862_3_alg».proof.Proof.Iface
import proofs.«400994_j82781199663862_3_alg».proof.Proof.LibFlatScatter
import Idealize.ShloMosaic.Lib.ValueIdx
import Idealize.ShloMosaic.Lib.ValueLayout
import Idealize.ShloMosaic.Lib.KernelVsHost
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HostVal

open Idealize.ShloMosaic Idealize.ShloMosaic.TcCoe Idealize.ShloMosaic.ValueIdx Idealize.SL.Sem
open Cert.KernelIdeal Cert.KernelIdeal.Gen Gcn

variable (W : Valuation τ sig (Elt Ideal))

/-! ## Before region 0: the dense adjacency matrix -/

/-- The scatter positions as the program builds them from the two endpoint columns: `rows · 10000 + cols` in 32-bit
    words, `10^8` added where that reads negative, as a column. -/
private def flatIdx (rows cols : IVec S320000 32) : IVec S320000x1 32 :=
  broadcastInDim S320000x1 ![0] bcast_S320000_S320000x1_0
    (select
      (cmpi .slt (addi (muli rows (broadcastInDim S320000 ![] bcast_S_S320000 (constantI S_ 32 10000#32))) cols)
        (broadcastInDim S320000 ![] bcast_S_S320000 (constantI S_ 32 0#32)))
      (addi (addi (muli rows (broadcastInDim S320000 ![] bcast_S_S320000 (constantI S_ 32 10000#32))) cols)
        (broadcastInDim S320000 ![] bcast_S_S320000 (constantI S_ 32 100000000#32)))
      (addi (muli rows (broadcastInDim S320000 ![] bcast_S_S320000 (constantI S_ 32 10000#32))) cols))

/-- With both endpoints of edge `e` in range its position, read signed, is `rows e · 10000 + cols e`: the product and
    the sum do not wrap, and the result is not negative, so the select keeps it. -/
private theorem flatIdx_toInt (rows cols : IVec S320000 32) (e : Fin 320000)
    (hr : 0 ≤ (rows (ix1 e)).toInt ∧ (rows (ix1 e)).toInt < 10000)
    (hc : 0 ≤ (cols (ix1 e)).toInt ∧ (cols (ix1 e)).toInt < 10000) :
    (flatIdx rows cols (ix2 e 0)).toInt = (rows (ix1 e)).toInt * 10000 + (cols (ix1 e)).toInt := by
  have hz := FlatWord.toInt_flat _ _ hr hc
  have hread : flatIdx rows cols (ix2 e 0)
      = Scalar.select (IntOp.cmpi .slt (rows (ix1 e) * 10000#32 + cols (ix1 e)) 0#32)
          (rows (ix1 e) * 10000#32 + cols (ix1 e) + 100000000#32) (rows (ix1 e) * 10000#32 + cols (ix1 e)) := by
    unfold flatIdx
    refine (broadcastInDim_apply _ _ _ (ix2 e 0) (ix1 e) fun a => match a with | ⟨0, _⟩ => rfl).trans ?_
    rfl
  have hs : (rows (ix1 e) * 10000#32 + cols (ix1 e)).slt 0#32 = false := by
    rw [BitVec.slt_eq_decide, decide_eq_false_iff_not, hz]
    have h0 : (0#32 : BitVec 32).toInt = 0 := by decide
    omega
  rw [hread]
  unfold Scalar.select IntOp.cmpi
  simp only [hs]
  exact hz

/-- What the adjacency buffer holds before region 0, as one term over the arguments: the flat scatter-add of the edge
    weights into the zero array at the positions `flatIdx`, reshaped to a square matrix. -/
private theorem adj_term :
    (StableHlo.after hostOps0 W (Proc.devRef .tc main_v11) : FVec Ideal S10000x10000 .f32)
      = shapeCast S10000x10000
          (Host.scatterAdd (F := Ideal)
            (FlatScatter.scatterDims 100000000 320000 scatter_S100000000_S320000x1_S320000_n_0_0_1_wf)
            (broadcastInDim S100000000 ![] bcast_S_S100000000 (constant S_ .f32 0x00000000#32) : FVec Ideal S100000000 .f32)
            (flatIdx (W (Proc.devRef .tc main_arg5)) (W (Proc.devRef .tc main_arg6)))
            (W (Proc.devRef .tc main_arg1) : FVec Ideal S320000 .f32))
          shapeCasts_S100000000_S10000x10000 := by
  after_results_simp
  rfl

/-- With both endpoint columns in range, cell `(r, c)` of the reshaped flat scatter-add holds the weights of the edges
    from `c` to `r`: the flat index `rows · 10000 + cols` does not wrap, is not negative, and names cell
    `(rows, cols)` and no other. -/
theorem adj_value (h5 : InRange (W (Proc.devRef .tc main_arg5))) (h6 : InRange (W (Proc.devRef .tc main_arg6)))
    (r c : Fin 10000) :
    StableHlo.after hostOps0 W (Proc.devRef .tc main_v11) (ix2 r c)
      = adj (nodes (W (Proc.devRef .tc main_arg5))) (nodes (W (Proc.devRef .tc main_arg6)))
          (weights (W (Proc.devRef .tc main_arg1))) r c := by
  have e := adj_term W
  have hlt : r.val * 10000 + c.val < 100000000 := by have := r.isLt; have := c.isLt; omega
  rw [e, shapeCast_apply _ _ (ix2 r c) (ix1 (⟨r.val * 10000 + c.val, hlt⟩ : Fin 100000000))
      (by rw [Shape.rowMajor_val_one, Shape.rowMajor_val_two]; rfl),
    FlatScatter.scatterAdd_apply]
  -- the operand is the zero array
  show Ideal.ofBits .f32 0x00000000#32 + _ = _
  rw [Ideal.ofBits_zero_f32, zero_add]
  -- edge `e` lands on the flat position of `(r, c)` exactly when it runs from `c` to `r`
  unfold adj weights
  refine Finset.sum_congr (Finset.filter_congr fun e _ => ?_) fun _ _ => rfl
  rw [flatIdx_toInt _ _ e (h5 e) (h6 e)]
  have hr := node_val (h5 e)
  have hc := node_val (h6 e)
  have h5e := h5 e
  have h6e := h6 e
  have := r.isLt
  have := c.isLt
  show _ = ((r.val * 10000 + c.val : Nat) : Int) ↔ node (W (Proc.devRef .tc main_arg5) (ix1 e)) = r
    ∧ node (W (Proc.devRef .tc main_arg6) (ix1 e)) = c
  rw [Fin.ext_iff, Fin.ext_iff]
  omega

/-! ## Between regions 0 and 1: formats and the padding -/

/-- The contents after the three stretches between region 0 and region 1. -/
abbrev after1 : Valuation τ sig (Elt Ideal) :=
  StableHlo.after hostOps1_2 (StableHlo.after hostOps1_1 (StableHlo.after hostOps1 W))

theorem x_value (r : Fin 10000) (k : Fin 512) :
    after1 W (Proc.devRef .tc main_v13) (ix2 r k) = W (Proc.devRef .tc main_arg0) (ix2 r k) := by
  have e : (after1 W (Proc.devRef .tc main_v13) : FVec Ideal S10000x512 .bf16)
      = (truncf .bf16 (W (Proc.devRef .tc main_arg0) : FVec Ideal S10000x512 .f32) bitsLt_bf16_f32 : FVec Ideal S10000x512 .bf16) := by
    after_results
  rw [e]
  exact truncf_apply _ _ _

theorem w1_value (k : Fin 512) (q : Fin 128) :
    after1 W (Proc.devRef .tc main_v14) (ix2 k q) = W (Proc.devRef .tc main_arg2) (ix2 k q) := by
  have e : (after1 W (Proc.devRef .tc main_v14) : FVec Ideal S512x128 .bf16)
      = (truncf .bf16 (W (Proc.devRef .tc main_arg2) : FVec Ideal S512x128 .f32) bitsLt_bf16_f32 : FVec Ideal S512x128 .bf16) := by
    after_results
  rw [e]
  exact truncf_apply _ _ _

theorem w2_value (k : Fin 128) (q : Fin 256) :
    after1 W (Proc.devRef .tc main_v15) (ix2 k q) = W (Proc.devRef .tc main_arg3) (ix2 k q) := by
  have e : (after1 W (Proc.devRef .tc main_v15) : FVec Ideal S128x256 .bf16)
      = (truncf .bf16 (W (Proc.devRef .tc main_arg3) : FVec Ideal S128x256 .f32) bitsLt_bf16_f32 : FVec Ideal S128x256 .bf16) := by
    after_results
  rw [e]
  exact truncf_apply _ _ _

/-- The last weight matrix, widened to 128 columns by zeros. -/
theorem w3_value (k : Fin 256) (q : Fin 128) :
    after1 W (Proc.devRef .tc main_v17) (ix2 k q) = padCols 128 (asMat (W (Proc.devRef .tc main_arg4))) k q := by
  have e : (after1 W (Proc.devRef .tc main_v17) : FVec Ideal S256x128 .bf16)
      = truncf .bf16 (pad S256x128 ![0, 0] ![0, 108] ![0, 0] (W (Proc.devRef .tc main_arg4) : FVec Ideal S256x20 .f32)
          (sitofp .f32 (constantI S_ 32 0#32) : FVec Ideal S_ .f32) pads_S256x20_S256x128_000_01080 h_S_ :
            FVec Ideal S256x128 .f32) bitsLt_bf16_f32 := by
    after_results
    rfl
  rw [e, truncf_apply]
  unfold padCols asMat
  by_cases h : q.val < 20
  · -- inside the operand: its own entry
    rw [dif_pos h]
    exact pad_apply_of_inside _ _ _ _ _ _ _ _ (ix2 k (⟨q.val, h⟩ : Fin 20)) fun a => match a with
      | ⟨0, _⟩ => by show k.val = 0 + k.val * (0 + 1); omega
      | ⟨1, _⟩ => by show q.val = 0 + q.val * (0 + 1); omega
  · -- in the high padding of the columns: the fill, the integer 0 converted
    rw [dif_neg h]
    refine (pad_apply_of_not_inside _ _ _ _ _ _ _ _ (1 : Fin 2) ?_).trans ?_
    · show ¬(0 ≤ q.val ∧ (q.val - 0) % (0 + 1) = 0 ∧ (q.val - 0) / (0 + 1) < 20)
      omega
    · show (((0#32 : BitVec 32).toInt : ℝ) : EReal) = 0
      simp

/-- These stretches do not write the adjacency matrix. -/
theorem adj_kept : after1 W (Proc.devRef .tc main_v12) = W (Proc.devRef .tc main_v12) := by
  after_results

/-! ## Between regions 4 and 5: the slice and the transpose -/

theorem z_value (r : Fin 10000) (q : Fin 20) :
    StableHlo.after hostOps5 W (Proc.devRef .tc main_v22) (ix2 r q)
      = W (Proc.devRef .tc main_v21) (ix2 r (Fin.castLE (by decide) q)) := by
  have e : (StableHlo.after hostOps5 W (Proc.devRef .tc main_v22) : S10000x20.Idx → EReal)
      = extractStridedSlice S10000x20 ![0, 0] (W (Proc.devRef .tc main_v21) : S10000x128.Idx → EReal)
          slices_S10000x128_S10000x20_0_0 := by
    after_results
  rw [e, RowOps.colSlice_apply slices_S10000x128_S10000x20_0_0 _ r q (by have := q.isLt; omega)]
  exact congrArg (fun c : Fin 128 => (W (Proc.devRef .tc main_v21) : S10000x128.Idx → EReal) (ix2 r c))
    (Fin.ext (Nat.zero_add _))

theorem zt_value (k : Fin 128) (j : Fin 10000) :
    StableHlo.after hostOps5 W (Proc.devRef .tc main_v23) (ix2 k j) = W (Proc.devRef .tc main_v21) (ix2 j k) := by
  have e : (StableHlo.after hostOps5 W (Proc.devRef .tc main_v23) : S128x10000.Idx → EReal)
      = transpose S128x10000 [1, 0] (W (Proc.devRef .tc main_v21) : S10000x128.Idx → EReal)
          transposes_S10000x128_S128x10000_1_0 := by
    after_results
  rw [e]
  exact transpose_ix2_apply _ _ k j

theorem zp_kept : StableHlo.after hostOps5 W (Proc.devRef .tc main_v21) = W (Proc.devRef .tc main_v21) :=
  StableHlo.after_of_forall_not_mem (b := Proc.devRef .tc main_v21) _ _ (List.forall_iff_forall_mem.mp (by
    simp only [hostOps5, List.Forall, StableHlo.unary_writes, Finset.mem_singleton]
    repeat' apply And.intro
    all_goals exact StableHlo.devRef_ne_of_ne (by decide)))

end Cert.KernelIdeal.HostVal

end
-- ==== Proof.KReg0.lean ====
import proofs.«400994_j82781199663862_3_alg».proof.Defs
import proofs.«400994_j82781199663862_3_alg».proof.Proof.Gen.KernelIdeal.Frame
import proofs.«400994_j82781199663862_3_alg».proof.Proof.Iface
import Idealize.ShloMosaic.Lib.ValueIdx
import Idealize.ShloMosaic.Lib.Pipeline.Value
import Idealize.ShloMosaic.PureOps.Ideal.Laws

set_option maxRecDepth 16384

noncomputable section

/-
  Region 0: the change of float format of the dense adjacency matrix.  The grid has 50 points; point `t` reads rows
  `200 t … 200 t + 199` of the source array and writes them, entry by entry, to the same rows of the result.
-/
namespace Cert.KernelIdeal.RegVal.Cast

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The body's value at an index is its block's value there: the cast to the same shape and the change of float
    format are identities on the extended reals. -/
theorem pay_apply (x0 : Vec Ideal S200x10000 .f32) (j : S200x10000.Idx) :
    k0_pay1 (F := Ideal) x0 j = (x0 j : EReal) := by
  unfold k0_pay1
  simp only [shapeCast_self]
  rfl

/-- The printed index maps over the 50 grid points: the row block of the source and of the result is the point's
    number. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The source array as the region finds it, at its literal type. -/
abbrev src : S10000x10000.Idx → EReal := V c main_v11

/-- The whole result array: the source array itself. -/
def G : S10000x10000.Idx → EReal := fun i => src V c i

/-- What point `t` writes back is block `t` of the source array. -/
theorem flushed_eq (t : Fin cfg0.N) :
    (dat0 (F := Ideal) V c).flushed 1 t = ((cfg0.win 1).blk t).view.read (Elt Ideal) (G V c) := by
  show (cfg0.win 1).cut (grid0.coords t) ((dat0 (F := Ideal) V c).after 1 t) = _
  rw [after0_1]
  unfold out0_1
  rw [View.canon_unit_zero hz]
  simp only [View.ld_unit_zero (S := S200x10000) hz]
  obtain ⟨e0, e1, e2, e3⟩ := idx_facts t
  funext j
  obtain ⟨p, q, rfl⟩ : ∃ (p : Fin 200) (q : Fin 10000), j = ix2 p q := ⟨j 0, j 1, eq_ix2 j⟩
  refine (pay_apply _ (ix2 p q)).trans ?_
  show src V c (((cfg0.win 0).blk t).view.emb (ix2 p q)) = G V c (((cfg0.win 1).blk t).view.emb (ix2 p q))
  unfold G
  -- the source block and the result block sit at the same place of their arrays
  have h0 : ((cfg0.win 0).blk t).view.emb (ix2 p q) = ((cfg0.win 1).blk t).view.emb (ix2 p q) := by
    funext a; apply Fin.ext
    match a with
    | ⟨0, _⟩ => show win0_0.index t (0 : Fin 2) * 200 + 1 * p.val = win0_1.index t (0 : Fin 2) * 200 + 1 * p.val; omega
    | ⟨1, _⟩ => show win0_0.index t (1 : Fin 2) * 10000 + 1 * q.val = win0_1.index t (1 : Fin 2) * 10000 + 1 * q.val; omega
  rw [h0]

/-- An index of the result array is in point `t`'s block iff its row is among the block's 200 rows. -/
theorem mem_blk (t : Fin cfg0.N) (i : S10000x10000.Idx) :
    i ∈ ((cfg0.win 1).blk t).view.set ↔ ∀ a : Fin 2, win0_1.index t a * S200x10000.size a ≤ (i a).val ∧ (i a).val < win0_1.index t a * S200x10000.size a + S200x10000.size a := by
  show i ∈ ((View.whole main_v12).slice (win0_1.rect t)).set ↔ _
  rw [View.set_slice_whole, Rect.mem_set_unit]
  exact Iff.rfl

/-- Every row lies in the block of the point `row / 200`. -/
theorem cover (i : S10000x10000.Idx) : ∃ t : Fin cfg0.N, (cfg0.win 1).flush t = true ∧ i ∈ ((cfg0.win 1).blk t).view.set := by
  have hi0 : (i 0).val < 10000 := (i 0).isLt
  have hi1 : (i 1).val < 10000 := (i 1).isLt
  refine ⟨⟨(i 0).val / 200, by rw [show cfg0.N = 50 from N_0]; omega⟩, flush0_1 _, ?_⟩
  rw [mem_blk]
  obtain ⟨e0, e1, e2, e3⟩ := idx_facts ⟨(i 0).val / 200, by rw [show cfg0.N = 50 from N_0]; omega⟩
  intro a
  match a with
  | ⟨0, _⟩ => show win0_1.index _ (0 : Fin 2) * 200 ≤ (i 0).val ∧ (i 0).val < win0_1.index _ (0 : Fin 2) * 200 + 200; rw [e2]; show (i 0).val / 200 * 200 ≤ (i 0).val ∧ (i 0).val < (i 0).val / 200 * 200 + 200; omega
  | ⟨1, _⟩ => show win0_1.index _ (1 : Fin 2) * 10000 ≤ (i 1).val ∧ (i 1).val < win0_1.index _ (1 : Fin 2) * 10000 + 10000; rw [e3]; omega

end Cert.KernelIdeal.RegVal.Cast

namespace Cert.KernelIdeal.RegVal

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

/-- Region 0 copies the dense adjacency matrix entry by entry (a change of float format is the identity on the
    extended reals). -/
theorem cast_value (i : S10000x10000.Idx) :
    (dat0 (F := Ideal) V c).arrAt 1 cfg0.N i = V c main_v11 i := by
  exact congrFun ((dat0 (F := Ideal) V c).arrAt_eq_of_cover 1 (Cast.G V c) (fun t _ => Cast.flushed_eq V c t) (Cast.cover)) i

end Cert.KernelIdeal.RegVal

end
-- ==== Proof.LibMatmul.lean ====
/-
  A plain matrix product read at an index.

  For the dimension numbers of an `[M, K]` by `[K, N]` product (contract the left operand's second axis with the right
  operand's first; no batch axis) entry `(p, q)` of the product into a zero accumulator, on the extended reals, is
  `∑ l, lhs (p, l) · rhs (l, q)`: the one-axis contraction index is its coordinate `l`, the left operand is read at
  `(p, l)` and the right at `(l, q)`.
-/
import Idealize.ShloMosaic.PureOps.Ideal.Laws
import Idealize.ShloMosaic.Lib.ValueIdx

noncomputable section

open scoped BigOperators

namespace PlainMatmul

open Idealize.ShloMosaic Idealize.ShloMosaic.ValueIdx

variable {M K N : Nat}

/-- The left operand's index at result index `(p, q)` and contraction index `k` is `(p, k)`. -/
theorem lhsIdx_eq (p : Fin M) (q : Fin N) (k : (DotDims.plain M K N).contr.Idx) (l : Fin K)
    (hk : (k ⟨0, (Nat.one_pos : 0 < 1)⟩).val = l.val) : (DotDims.plain M K N).lhsIdx (ix2 p q) k = ix2 p l := by
  funext a
  refine Fin.ext ?_
  match a with
  | ⟨0, _⟩ =>
    show ((DotDims.plain M K N).lhsIdx (ix2 p q) k 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) k 1).val = l.val
    exact ((DotDims.plain M K N).lhsIdx_val_of_single rfl (ix2 p q) k).trans hk

/-- The right operand's index there is `(k, q)`. -/
theorem rhsIdx_eq (p : Fin M) (q : Fin N) (k : (DotDims.plain M K N).contr.Idx) (l : Fin K)
    (hk : (k ⟨0, (Nat.one_pos : 0 < 1)⟩).val = l.val) : (DotDims.plain M K N).rhsIdx (ix2 p q) k = ix2 l q := by
  funext a
  refine Fin.ext ?_
  match a with
  | ⟨0, _⟩ =>
    show ((DotDims.plain M K N).rhsIdx (ix2 p q) k 0).val = l.val
    exact ((DotDims.plain M K N).rhsIdx_val_of_single rfl (ix2 p q) k).trans hk
  | ⟨1, _⟩ =>
    show ((DotDims.plain M K N).rhsIdx (ix2 p q) k 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- Entry `(p, q)` of a plain product into the zero accumulator is `∑ l, lhs (p, l) · rhs (l, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) := by
  rw [Ideal.matmul_constant_zero_apply, ← Equiv.sum_comp (contrEquiv1 (DotDims.plain M K N) K rfl rfl).symm]
  refine Finset.sum_congr rfl fun l _ => ?_
  have hk := contrEquiv1_symm_val (DotDims.plain M K N) K rfl rfl l
  rw [lhsIdx_eq p q _ l hk, rhsIdx_eq p q _ l hk]

end PlainMatmul

end
-- ==== Proof.KReg1.lean ====
import proofs.«400994_j82781199663862_3_alg».proof.Defs
import proofs.«400994_j82781199663862_3_alg».proof.Proof.Gen.KernelIdeal.Frame
import proofs.«400994_j82781199663862_3_alg».proof.Proof.Iface
import Idealize.ShloMosaic.Lib.ValueIdx
import Idealize.ShloMosaic.Lib.Pipeline.Value
import Idealize.ShloMosaic.PureOps.Ideal.Laws
import proofs.«400994_j82781199663862_3_alg».proof.Proof.LibMatmul
set_option maxRecDepth 16384

noncomputable section

/-
  Region 1: the product `x · W1`.  The grid has 5 points; point `t` multiplies rows `2000 t … 2000 t + 1999` of the first
  operand by the whole second operand and writes rows `2000 t …` of the result.
-/
namespace Cert.KernelIdeal.RegVal.Linear

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The body's value at `(p, q)`: the inner product of row `p` of its first block with column `q` of its second
    (the changes of float format and the casts to the same shape are identities). -/
theorem pay_apply (x0 : Vec Ideal S2000x512 .bf16) (x1 : Vec Ideal S512x128 .bf16) (p : Fin 2000) (q : Fin 128) :
    k1_pay1 (F := Ideal) x0 x1 (ix2 p q) = ∑ l : Fin 512, x0 (ix2 p l) * x1 (ix2 l q) := by
  unfold k1_pay1
  simp only [shapeCast_self]
  exact PlainMatmul.matmul_zero_apply (M := 2000) (K := 512) (N := 128) (φ₁ := .bf16) (φ₂ := .bf16) none x0 x1 p q

/-- The printed index maps over the 5 grid points: the first operand's and the result's row block is the point's
    number; the second operand is one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The two operand arrays as the region finds them, at their literal types. -/
abbrev xarr : S10000x512.Idx → EReal := V c main_v13
abbrev warr : S512x128.Idx → EReal := V c main_v14

/-- The whole result array: the product of the two operand arrays as the region finds them. -/
def G : S10000x128.Idx → EReal := fun i => mmul (asMat (xarr V c)) (asMat (warr V c)) (i 0) (i 1)

/-- What point `t` writes back is block `t` of the product. -/
theorem flushed_eq (t : Fin cfg1.N) :
    (dat1 (F := Ideal) V c).flushed 2 t = ((cfg1.win 2).blk t).view.read (Elt Ideal) (G V c) := by
  show (cfg1.win 2).cut (grid1.coords t) ((dat1 (F := Ideal) V c).after 2 t) = _
  rw [after1_2]
  unfold out1_2
  rw [View.canon_unit_zero hz]
  simp only [View.ld_unit_zero (S := S2000x512) hz, View.ld_unit_zero (S := S512x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  refine (pay_apply _ _ p q).trans ?_
  show _ = G V c (((cfg1.win 2).blk t).view.emb (ix2 p q))
  unfold G mmul asMat
  refine Finset.sum_congr rfl fun l _ => ?_
  have h0 : ((cfg1.win 0).blk t).view.emb (ix2 p l) = ix2 ((((cfg1.win 2).blk t).view.emb (ix2 p q)) 0) l := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 512 + 1 * l.val = l.val; omega
  have h1 : ((cfg1.win 1).blk t).view.emb (ix2 l q) = ix2 l ((((cfg1.win 2).blk t).view.emb (ix2 p q)) 1) := by
    funext a; apply Fin.ext
    match a with
    | ⟨0, _⟩ => show win1_1.index t (0 : Fin 2) * 512 + 1 * l.val = l.val; omega
    | ⟨1, _⟩ => show win1_1.index t (1 : Fin 2) * 128 + 1 * q.val = win1_2.index t (1 : Fin 2) * 128 + 1 * q.val; omega
  show xarr V c (((cfg1.win 0).blk t).view.emb (ix2 p l)) * warr V c (((cfg1.win 1).blk t).view.emb (ix2 l q)) = _
  rw [h0, h1]
  rfl

/-- An index of the result array is in point `t`'s block iff its row is among the block's 2000 rows. -/
theorem mem_blk (t : Fin cfg1.N) (i : S10000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v18).slice (win1_2.rect t)).set ↔ _
  rw [View.set_slice_whole, Rect.mem_set_unit]
  exact Iff.rfl

/-- Every row lies in the block of the point `row / 2000`. -/
theorem cover (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  refine ⟨⟨(i 0).val / 2000, by rw [show cfg1.N = 5 from N_1]; omega⟩, flush1_2 _, ?_⟩
  rw [mem_blk]
  obtain ⟨e0, e1, e2, e3, e4, e5⟩ := idx_facts ⟨(i 0).val / 2000, by rw [show cfg1.N = 5 from N_1]; omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ (i 0).val ∧ (i 0).val < (i 0).val / 2000 * 2000 + 2000; omega
  | ⟨1, _⟩ => show win1_2.index _ (1 : Fin 2) * 128 ≤ (i 1).val ∧ (i 1).val < win1_2.index _ (1 : Fin 2) * 128 + 128; rw [e5]; omega

end Cert.KernelIdeal.RegVal.Linear

namespace Cert.KernelIdeal.RegVal

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

/-- Region 1 leaves the product of its two operand arrays. -/
theorem linear_value (r : Fin 10000) (q : Fin 128) :
    (dat1 (F := Ideal) V c).arrAt 2 cfg1.N (ix2 r q) = mmul (asMat (V c main_v13)) (asMat (V c main_v14)) r q := by
  rw [(dat1 (F := Ideal) V c).arrAt_eq_of_cover 2 (Linear.G V c) (fun t _ => Linear.flushed_eq V c t) (Linear.cover)]
  rfl

end Cert.KernelIdeal.RegVal

end
-- ==== Proof.KReg2.lean ====
import proofs.«400994_j82781199663862_3_alg».proof.Defs
import proofs.«400994_j82781199663862_3_alg».proof.Proof.Gen.KernelIdeal.Frame
import proofs.«400994_j82781199663862_3_alg».proof.Proof.Iface
import Idealize.ShloMosaic.Lib.ValueIdx
import Idealize.ShloMosaic.Lib.Pipeline.Value
import Idealize.ShloMosaic.PureOps.Ideal.Laws
import proofs.«400994_j82781199663862_3_alg».proof.Proof.LibMatmul

set_option maxRecDepth 16384

noncomputable section

/-
  Region 2: `relu (A · S) · W`.  The grid has 25 points; point `t` multiplies rows `400 t … 400 t + 399` of `A` by the
  whole of `S`, clamps the product below at zero, multiplies the outcome by the whole of `W`, and writes rows `400 t …`
  of the result.
-/
namespace Cert.KernelIdeal.RegVal.Fused2

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The body's value at `(p, q)`: row `p` of the clamped first product against column `q` of the third block; entry
    `(p, l)` of the first product is the inner product of row `p` of the first block with column `l` of the second
    (the changes of float format and the casts to the same shape are identities, the clamp's bound is zero). -/
theorem pay_apply (x0 : Vec Ideal S400x10000 .bf16) (x1 : Vec Ideal S10000x128 .bf16) (x2 : Vec Ideal S128x256 .bf16)
    (p : Fin 400) (q : Fin 256) :
    k2_pay1 (F := Ideal) x0 x1 x2 (ix2 p q)
      = ∑ l : Fin 128, max (∑ k : Fin 10000, x0 (ix2 p k) * x1 (ix2 k l)) 0 * x2 (ix2 l q) := by
  unfold k2_pay1
  simp only [shapeCast_self]
  refine (PlainMatmul.matmul_zero_apply (M := 400) (K := 128) (N := 256) (φ₁ := .bf16) (φ₂ := .bf16) none _ x2 p q).trans ?_
  refine Finset.sum_congr rfl fun l _ => ?_
  refine congrArg (· * x2 (ix2 l q)) ?_
  refine (congrArg₂ max
    (PlainMatmul.matmul_zero_apply (M := 400) (K := 10000) (N := 128) (φ₁ := .bf16) (φ₂ := .bf16) none x0 x1 p l)
    Ideal.ofBits_zero_f32 : _)

/-- The printed index maps over the 25 grid points: the first operand's and the result's row block is the point's
    number; the second and third operands are one block each. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The three operand arrays as the region finds them, at their literal types. -/
abbrev aarr : S10000x10000.Idx → EReal := V c main_v12
abbrev sarr : S10000x128.Idx → EReal := V c main_v18
abbrev warr : S128x256.Idx → EReal := V c main_v15

/-- The whole result array: `relu (A · S) · W` of the three operand arrays as the region finds them. -/
def G : S10000x256.Idx → EReal := fun i =>
  mmul (relu (mmul (asMat (aarr V c)) (asMat (sarr V c)))) (asMat (warr V c)) (i 0) (i 1)

/-- What point `t` writes back is block `t` of that array. -/
theorem flushed_eq (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz]
  simp only [View.ld_unit_zero (S := S400x10000) hz, View.ld_unit_zero (S := S10000x128) hz,
    View.ld_unit_zero (S := S128x256) hz]
  obtain ⟨e0, e1, e2, e3, e4, e5, e6, e7⟩ := idx_facts t
  funext j
  obtain ⟨p, q, rfl⟩ : ∃ (p : Fin 400) (q : Fin 256), j = ix2 p q := ⟨j 0, j 1, eq_ix2 j⟩
  refine (pay_apply _ _ _ p q).trans ?_
  show _ = G V c (((cfg2.win 3).blk t).view.emb (ix2 p q))
  unfold G mmul relu asMat
  refine Finset.sum_congr rfl fun l _ => ?_
  have h0 : ∀ k : Fin 10000,
      ((cfg2.win 0).blk t).view.emb (ix2 p k) = ix2 ((((cfg2.win 3).blk t).view.emb (ix2 p q)) 0) k := by
    intro k; funext a; apply Fin.ext
    match a with
    | ⟨0, _⟩ => show win2_0.index t (0 : Fin 2) * 400 + 1 * p.val = win2_3.index t (0 : Fin 2) * 400 + 1 * p.val; omega
    | ⟨1, _⟩ => show win2_0.index t (1 : Fin 2) * 10000 + 1 * k.val = k.val; omega
  have h1 : ∀ k : Fin 10000, ((cfg2.win 1).blk t).view.emb (ix2 k l) = ix2 k l := by
    intro k; funext a; apply Fin.ext
    match a with
    | ⟨0, _⟩ => show win2_1.index t (0 : Fin 2) * 10000 + 1 * k.val = k.val; omega
    | ⟨1, _⟩ => show win2_1.index t (1 : Fin 2) * 128 + 1 * l.val = l.val; omega
  have h2 : ((cfg2.win 2).blk t).view.emb (ix2 l q) = ix2 l ((((cfg2.win 3).blk t).view.emb (ix2 p q)) 1) := by
    funext a; apply Fin.ext
    match a with
    | ⟨0, _⟩ => show win2_2.index t (0 : Fin 2) * 128 + 1 * l.val = l.val; omega
    | ⟨1, _⟩ => show win2_2.index t (1 : Fin 2) * 256 + 1 * q.val = win2_3.index t (1 : Fin 2) * 256 + 1 * q.val; omega
  show max (∑ k : Fin 10000, aarr V c (((cfg2.win 0).blk t).view.emb (ix2 p k))
        * sarr V c (((cfg2.win 1).blk t).view.emb (ix2 k l))) 0
      * warr V c (((cfg2.win 2).blk t).view.emb (ix2 l q)) = _
  rw [h2, Finset.sum_congr rfl fun k _ => by rw [h0 k, h1 k]]
  rfl

/-- An index of the result array is in point `t`'s block iff its row is among the block's 400 rows. -/
theorem mem_blk (t : Fin cfg2.N) (i : S10000x256.Idx) :
    i ∈ ((cfg2.win 3).blk t).view.set ↔ ∀ a : Fin 2, win2_3.index t a * S400x256.size a ≤ (i a).val ∧ (i a).val < win2_3.index t a * S400x256.size a + S400x256.size a := by
  show i ∈ ((View.whole main_v19).slice (win2_3.rect t)).set ↔ _
  rw [View.set_slice_whole, Rect.mem_set_unit]
  exact Iff.rfl

/-- Every row lies in the block of the point `row / 400`. -/
theorem cover (i : S10000x256.Idx) : ∃ t : Fin cfg2.N, (cfg2.win 3).flush t = true ∧ i ∈ ((cfg2.win 3).blk t).view.set := by
  have hi0 : (i 0).val < 10000 := (i 0).isLt
  have hi1 : (i 1).val < 256 := (i 1).isLt
  refine ⟨⟨(i 0).val / 400, by rw [show cfg2.N = 25 from N_2]; omega⟩, flush2_3 _, ?_⟩
  rw [mem_blk]
  obtain ⟨e0, e1, e2, e3, e4, e5, e6, e7⟩ := idx_facts ⟨(i 0).val / 400, by rw [show cfg2.N = 25 from N_2]; omega⟩
  intro a
  match a with
  | ⟨0, _⟩ => show win2_3.index _ (0 : Fin 2) * 400 ≤ (i 0).val ∧ (i 0).val < win2_3.index _ (0 : Fin 2) * 400 + 400; rw [e6]; show (i 0).val / 400 * 400 ≤ (i 0).val ∧ (i 0).val < (i 0).val / 400 * 400 + 400; omega
  | ⟨1, _⟩ => show win2_3.index _ (1 : Fin 2) * 256 ≤ (i 1).val ∧ (i 1).val < win2_3.index _ (1 : Fin 2) * 256 + 256; rw [e7]; omega

end Cert.KernelIdeal.RegVal.Fused2

namespace Cert.KernelIdeal.RegVal

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

/-- Region 2 leaves `relu (A · S) · W` of its three operand arrays. -/
theorem fused2_value (r : Fin 10000) (q : Fin 256) :
    (dat2 (F := Ideal) V c).arrAt 3 cfg2.N (ix2 r q)
      = mmul (relu (mmul (asMat (V c main_v12)) (asMat (V c main_v18)))) (asMat (V c main_v15)) r q := by
  rw [(dat2 (F := Ideal) V c).arrAt_eq_of_cover 3 (Fused2.G V c) (fun t _ => Fused2.flushed_eq V c t) (Fused2.cover)]
  rfl

end Cert.KernelIdeal.RegVal

end
-- ==== Proof.KReg3.lean ====
import proofs.«400994_j82781199663862_3_alg».proof.Defs
import proofs.«400994_j82781199663862_3_alg».proof.Proof.Gen.KernelIdeal.Frame
import proofs.«400994_j82781199663862_3_alg».proof.Proof.Iface
import Idealize.ShloMosaic.Lib.ValueIdx
import Idealize.ShloMosaic.Lib.Pipeline.Value
import Idealize.ShloMosaic.PureOps.Ideal.Laws
import proofs.«400994_j82781199663862_3_alg».proof.Proof.LibMatmul

set_option maxRecDepth 16384

noncomputable section

/-
  Region 3: `relu (A · S) · W` again, now with `S` of 256 columns and `W` of 128.  The grid has 25 points; point `t`
  multiplies rows `400 t … 400 t + 399` of `A` by the whole of `S`, clamps the product below at zero, multiplies the
  outcome by the whole of `W`, and writes rows `400 t …` of the result.
-/
namespace Cert.KernelIdeal.RegVal.Fused3

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The body's value at `(p, q)`: row `p` of the clamped first product against column `q` of the third block; entry
    `(p, l)` of the first product is the inner product of row `p` of the first block with column `l` of the second
    (the changes of float format and the casts to the same shape are identities, the clamp's bound is zero). -/
theorem pay_apply (x0 : Vec Ideal S400x10000 .bf16) (x1 : Vec Ideal S10000x256 .bf16) (x2 : Vec Ideal S256x128 .bf16)
    (p : Fin 400) (q : Fin 128) :
    k3_pay1 (F := Ideal) x0 x1 x2 (ix2 p q)
      = ∑ l : Fin 256, max (∑ k : Fin 10000, x0 (ix2 p k) * x1 (ix2 k l)) 0 * x2 (ix2 l q) := by
  unfold k3_pay1
  simp only [shapeCast_self]
  refine (PlainMatmul.matmul_zero_apply (M := 400) (K := 256) (N := 128) (φ₁ := .bf16) (φ₂ := .bf16) none _ x2 p q).trans ?_
  refine Finset.sum_congr rfl fun l _ => ?_
  refine congrArg (· * x2 (ix2 l q)) ?_
  refine (congrArg₂ max
    (PlainMatmul.matmul_zero_apply (M := 400) (K := 10000) (N := 256) (φ₁ := .bf16) (φ₂ := .bf16) none x0 x1 p l)
    Ideal.ofBits_zero_f32 : _)

/-- The printed index maps over the 25 grid points: the first operand's and the result's row block is the point's
    number; the second and third operands are one block each. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The three operand arrays as the region finds them, at their literal types. -/
abbrev aarr : S10000x10000.Idx → EReal := V c main_v12
abbrev sarr : S10000x256.Idx → EReal := V c main_v19
abbrev warr : S256x128.Idx → EReal := V c main_v17

/-- The whole result array: `relu (A · S) · W` of the three operand arrays as the region finds them. -/
def G : S10000x128.Idx → EReal := fun i =>
  mmul (relu (mmul (asMat (aarr V c)) (asMat (sarr V c)))) (asMat (warr V c)) (i 0) (i 1)

/-- What point `t` writes back is block `t` of that array. -/
theorem flushed_eq (t : Fin cfg3.N) :
    (dat3 (F := Ideal) V c).flushed 3 t = ((cfg3.win 3).blk t).view.read (Elt Ideal) (G V c) := by
  show (cfg3.win 3).cut (grid3.coords t) ((dat3 (F := Ideal) V c).after 3 t) = _
  rw [after3_3]
  unfold out3_3
  rw [View.canon_unit_zero hz]
  simp only [View.ld_unit_zero (S := S400x10000) hz, View.ld_unit_zero (S := S10000x256) hz,
    View.ld_unit_zero (S := S256x128) hz]
  obtain ⟨e0, e1, e2, e3, e4, e5, e6, e7⟩ := idx_facts t
  funext j
  obtain ⟨p, q, rfl⟩ : ∃ (p : Fin 400) (q : Fin 128), j = ix2 p q := ⟨j 0, j 1, eq_ix2 j⟩
  refine (pay_apply _ _ _ p q).trans ?_
  show _ = G V c (((cfg3.win 3).blk t).view.emb (ix2 p q))
  unfold G mmul relu asMat
  refine Finset.sum_congr rfl fun l _ => ?_
  have h0 : ∀ k : Fin 10000,
      ((cfg3.win 0).blk t).view.emb (ix2 p k) = ix2 ((((cfg3.win 3).blk t).view.emb (ix2 p q)) 0) k := by
    intro k; funext a; apply Fin.ext
    match a with
    | ⟨0, _⟩ => show win3_0.index t (0 : Fin 2) * 400 + 1 * p.val = win3_3.index t (0 : Fin 2) * 400 + 1 * p.val; omega
    | ⟨1, _⟩ => show win3_0.index t (1 : Fin 2) * 10000 + 1 * k.val = k.val; omega
  have h1 : ∀ k : Fin 10000, ((cfg3.win 1).blk t).view.emb (ix2 k l) = ix2 k l := by
    intro k; funext a; apply Fin.ext
    match a with
    | ⟨0, _⟩ => show win3_1.index t (0 : Fin 2) * 10000 + 1 * k.val = k.val; omega
    | ⟨1, _⟩ => show win3_1.index t (1 : Fin 2) * 256 + 1 * l.val = l.val; omega
  have h2 : ((cfg3.win 2).blk t).view.emb (ix2 l q) = ix2 l ((((cfg3.win 3).blk t).view.emb (ix2 p q)) 1) := by
    funext a; apply Fin.ext
    match a with
    | ⟨0, _⟩ => show win3_2.index t (0 : Fin 2) * 256 + 1 * l.val = l.val; omega
    | ⟨1, _⟩ => show win3_2.index t (1 : Fin 2) * 128 + 1 * q.val = win3_3.index t (1 : Fin 2) * 128 + 1 * q.val; omega
  show max (∑ k : Fin 10000, aarr V c (((cfg3.win 0).blk t).view.emb (ix2 p k))
        * sarr V c (((cfg3.win 1).blk t).view.emb (ix2 k l))) 0
      * warr V c (((cfg3.win 2).blk t).view.emb (ix2 l q)) = _
  rw [h2, Finset.sum_congr rfl fun k _ => by rw [h0 k, h1 k]]
  rfl

/-- An index of the result array is in point `t`'s block iff its row is among the block's 400 rows. -/
theorem mem_blk (t : Fin cfg3.N) (i : S10000x128.Idx) :
    i ∈ ((cfg3.win 3).blk t).view.set ↔ ∀ a : Fin 2, win3_3.index t a * S400x128.size a ≤ (i a).val ∧ (i a).val < win3_3.index t a * S400x128.size a + S400x128.size a := by
  show i ∈ ((View.whole main_v20).slice (win3_3.rect t)).set ↔ _
  rw [View.set_slice_whole, Rect.mem_set_unit]
  exact Iff.rfl

/-- Every row lies in the block of the point `row / 400`. -/
theorem cover (i : S10000x128.Idx) : ∃ t : Fin cfg3.N, (cfg3.win 3).flush t = true ∧ i ∈ ((cfg3.win 3).blk t).view.set := by
  have hi0 : (i 0).val < 10000 := (i 0).isLt
  have hi1 : (i 1).val < 128 := (i 1).isLt
  refine ⟨⟨(i 0).val / 400, by rw [show cfg3.N = 25 from N_3]; omega⟩, flush3_3 _, ?_⟩
  rw [mem_blk]
  obtain ⟨e0, e1, e2, e3, e4, e5, e6, e7⟩ := idx_facts ⟨(i 0).val / 400, by rw [show cfg3.N = 25 from N_3]; omega⟩
  intro a
  match a with
  | ⟨0, _⟩ => show win3_3.index _ (0 : Fin 2) * 400 ≤ (i 0).val ∧ (i 0).val < win3_3.index _ (0 : Fin 2) * 400 + 400; rw [e6]; show (i 0).val / 400 * 400 ≤ (i 0).val ∧ (i 0).val < (i 0).val / 400 * 400 + 400; omega
  | ⟨1, _⟩ => show win3_3.index _ (1 : Fin 2) * 128 ≤ (i 1).val ∧ (i 1).val < win3_3.index _ (1 : Fin 2) * 128 + 128; rw [e7]; omega

end Cert.KernelIdeal.RegVal.Fused3

namespace Cert.KernelIdeal.RegVal

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

/-- Region 3 leaves `relu (A · S) · W` of its three operand arrays. -/
theorem fused3_value (r : Fin 10000) (q : Fin 128) :
    (dat3 (F := Ideal) V c).arrAt 3 cfg3.N (ix2 r q)
      = mmul (relu (mmul (asMat (V c main_v12)) (asMat (V c main_v19)))) (asMat (V c main_v17)) r q := by
  rw [(dat3 (F := Ideal) V c).arrAt_eq_of_cover 3 (Fused3.G V c) (fun t _ => Fused3.flushed_eq V c t) (Fused3.cover)]
  rfl

end Cert.KernelIdeal.RegVal

end
-- ==== Proof.KReg4.lean ====
import proofs.«400994_j82781199663862_3_alg».proof.Defs
import proofs.«400994_j82781199663862_3_alg».proof.Proof.Gen.KernelIdeal.Frame
import proofs.«400994_j82781199663862_3_alg».proof.Proof.Iface
import Idealize.ShloMosaic.Lib.ValueIdx
import Idealize.ShloMosaic.Lib.Pipeline.Value
import Idealize.ShloMosaic.PureOps.Ideal.Laws
import proofs.«400994_j82781199663862_3_alg».proof.Proof.LibMatmul

set_option maxRecDepth 16384

noncomputable section

/-
  Region 4: the product `A · S` of the dense adjacency matrix with the second layer's features.  The grid has 25
  points; point `t` multiplies rows `400 t … 400 t + 399` of `A` by the whole of `S` and writes rows `400 t …` of the
  result.
-/
namespace Cert.KernelIdeal.RegVal.Spmm

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The body's value at `(p, q)`: the inner product of row `p` of its block of `A` with column `q` of `S` (the casts
    to the same shape are identities, and the accumulator starts at zero). -/
theorem pay_apply (x0 : Vec Ideal S400x10000 .bf16) (x1 : Vec Ideal S10000x128 .bf16) (p : Fin 400) (q : Fin 128) :
    k4_pay1 (F := Ideal) x0 x1 (ix2 p q) = ∑ l : Fin 10000, x0 (ix2 p l) * x1 (ix2 l q) := by
  unfold k4_pay1
  simp only [shapeCast_self]
  exact PlainMatmul.matmul_zero_apply (M := 400) (K := 10000) (N := 128) (φ₁ := .bf16) (φ₂ := .bf16) none x0 x1 p q

/-- The printed index maps over the 25 grid points: the row block of `A` and of the result is the point's number;
    `S` is one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The two operand arrays as the region finds them, at their literal types. -/
abbrev aarr : S10000x10000.Idx → EReal := V c main_v12
abbrev sarr : S10000x128.Idx → EReal := V c main_v20

/-- The whole result array: the product of the two operand arrays as the region finds them. -/
def G : S10000x128.Idx → EReal := fun i => mmul (asMat (aarr V c)) (asMat (sarr V c)) (i 0) (i 1)

/-- What point `t` writes back is block `t` of the product. -/
theorem flushed_eq (t : Fin cfg4.N) :
    (dat4 (F := Ideal) V c).flushed 2 t = ((cfg4.win 2).blk t).view.read (Elt Ideal) (G V c) := by
  show (cfg4.win 2).cut (grid4.coords t) ((dat4 (F := Ideal) V c).after 2 t) = _
  rw [after4_2]
  unfold out4_2
  rw [View.canon_unit_zero hz]
  simp only [View.ld_unit_zero (S := S400x10000) hz, View.ld_unit_zero (S := S10000x128) hz]
  obtain ⟨e0, e1, e2, e3, e4, e5⟩ := idx_facts t
  funext j
  obtain ⟨p, q, rfl⟩ : ∃ (p : Fin 400) (q : Fin 128), j = ix2 p q := ⟨j 0, j 1, eq_ix2 j⟩
  refine (pay_apply _ _ p q).trans ?_
  show _ = G V c (((cfg4.win 2).blk t).view.emb (ix2 p q))
  unfold G mmul asMat
  refine Finset.sum_congr rfl fun l _ => ?_
  -- the block of `A` is read at the result's row and at column `l`
  have h0 : ((cfg4.win 0).blk t).view.emb (ix2 p l) = ix2 ((((cfg4.win 2).blk t).view.emb (ix2 p q)) 0) l := by
    funext a; apply Fin.ext
    match a with
    | ⟨0, _⟩ => show win4_0.index t (0 : Fin 2) * 400 + 1 * p.val = win4_2.index t (0 : Fin 2) * 400 + 1 * p.val; omega
    | ⟨1, _⟩ => show win4_0.index t (1 : Fin 2) * 10000 + 1 * l.val = l.val; omega
  -- the block of `S` is read at row `l` and at the result's column
  have h1 : ((cfg4.win 1).blk t).view.emb (ix2 l q) = ix2 l ((((cfg4.win 2).blk t).view.emb (ix2 p q)) 1) := by
    funext a; apply Fin.ext
    match a with
    | ⟨0, _⟩ => show win4_1.index t (0 : Fin 2) * 10000 + 1 * l.val = l.val; omega
    | ⟨1, _⟩ => show win4_1.index t (1 : Fin 2) * 128 + 1 * q.val = win4_2.index t (1 : Fin 2) * 128 + 1 * q.val; omega
  show aarr V c (((cfg4.win 0).blk t).view.emb (ix2 p l)) * sarr V c (((cfg4.win 1).blk t).view.emb (ix2 l q)) = _
  rw [h0, h1]
  rfl

/-- An index of the result array is in point `t`'s block iff its row is among the block's 400 rows. -/
theorem mem_blk (t : Fin cfg4.N) (i : S10000x128.Idx) :
    i ∈ ((cfg4.win 2).blk t).view.set ↔ ∀ a : Fin 2, win4_2.index t a * S400x128.size a ≤ (i a).val ∧ (i a).val < win4_2.index t a * S400x128.size a + S400x128.size a := by
  show i ∈ ((View.whole main_v21).slice (win4_2.rect t)).set ↔ _
  rw [View.set_slice_whole, Rect.mem_set_unit]
  exact Iff.rfl

/-- Every row lies in the block of the point `row / 400`. -/
theorem cover (i : S10000x128.Idx) : ∃ t : Fin cfg4.N, (cfg4.win 2).flush t = true ∧ i ∈ ((cfg4.win 2).blk t).view.set := by
  have hi0 : (i 0).val < 10000 := (i 0).isLt
  have hi1 : (i 1).val < 128 := (i 1).isLt
  refine ⟨⟨(i 0).val / 400, by rw [show cfg4.N = 25 from N_4]; omega⟩, flush4_2 _, ?_⟩
  rw [mem_blk]
  obtain ⟨e0, e1, e2, e3, e4, e5⟩ := idx_facts ⟨(i 0).val / 400, by rw [show cfg4.N = 25 from N_4]; omega⟩
  intro a
  match a with
  | ⟨0, _⟩ => show win4_2.index _ (0 : Fin 2) * 400 ≤ (i 0).val ∧ (i 0).val < win4_2.index _ (0 : Fin 2) * 400 + 400; rw [e4]; show (i 0).val / 400 * 400 ≤ (i 0).val ∧ (i 0).val < (i 0).val / 400 * 400 + 400; omega
  | ⟨1, _⟩ => show win4_2.index _ (1 : Fin 2) * 128 ≤ (i 1).val ∧ (i 1).val < win4_2.index _ (1 : Fin 2) * 128 + 128; rw [e5]; omega

end Cert.KernelIdeal.RegVal.Spmm

namespace Cert.KernelIdeal.RegVal

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

/-- Region 4 leaves the product `A · S` of its two operand arrays. -/
theorem spmm_value (r : Fin 10000) (q : Fin 128) :
    (dat4 (F := Ideal) V c).arrAt 2 cfg4.N (ix2 r q) = mmul (asMat (V c main_v12)) (asMat (V c main_v20)) r q := by
  rw [(dat4 (F := Ideal) V c).arrAt_eq_of_cover 2 (Spmm.G V c) (fun t _ => Spmm.flushed_eq V c t) (Spmm.cover)]
  rfl

end Cert.KernelIdeal.RegVal

end
-- ==== Proof.KReg5.lean ====
import proofs.«400994_j82781199663862_3_alg».proof.Defs
import proofs.«400994_j82781199663862_3_alg».proof.Proof.Gen.KernelIdeal.Frame
import proofs.«400994_j82781199663862_3_alg».proof.Proof.Iface
import Idealize.ShloMosaic.Lib.ValueIdx
import Idealize.ShloMosaic.Lib.Pipeline.Value
import Idealize.ShloMosaic.PureOps.Ideal.Laws
import proofs.«400994_j82781199663862_3_alg».proof.Proof.LibMatmul

set_option maxRecDepth 16384

noncomputable section

/-
  Region 5: the logistic function of the product `Z · Zt`.  The grid has 50 points; point `t` multiplies rows
  `200 t … 200 t + 199` of `Z` by the whole of `Zt`, applies the logistic function entry by entry and writes rows
  `200 t …` of the result.
-/
namespace Cert.KernelIdeal.RegVal.Outer

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The body's value at `(p, q)`: the logistic function of the inner product of row `p` of its block of `Z` with
    column `q` of `Zt` (the casts to the same shape are identities, and the accumulator starts at zero). -/
theorem pay_apply (x0 : Vec Ideal S200x128 .f32) (x1 : Vec Ideal S128x10000 .f32) (p : Fin 200) (q : Fin 10000) :
    k5_pay1 (F := Ideal) x0 x1 (ix2 p q) = Ideal.logistic (∑ l : Fin 128, x0 (ix2 p l) * x1 (ix2 l q)) := by
  unfold k5_pay1
  simp only [shapeCast_self]
  exact congrArg Ideal.logistic
    (PlainMatmul.matmul_zero_apply (M := 200) (K := 128) (N := 10000) (φ₁ := .f32) (φ₂ := .f32) (some .fp32) x0 x1 p q)

/-- The printed index maps over the 50 grid points: the row block of `Z` and of the result is the point's number;
    `Zt` is one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The two operand arrays as the region finds them, at their literal types. -/
abbrev zarr : S10000x128.Idx → EReal := V c main_v21
abbrev ztarr : S128x10000.Idx → EReal := V c main_v23

/-- The whole result array: the logistic function of the product of the two operand arrays as the region finds them. -/
def G : S10000x10000.Idx → EReal :=
  fun i => Ideal.logistic (mmul (asMat (zarr V c)) (asMat (ztarr V c)) (i 0) (i 1))

/-- What point `t` writes back is block `t` of that array. -/
theorem flushed_eq (t : Fin cfg5.N) :
    (dat5 (F := Ideal) V c).flushed 2 t = ((cfg5.win 2).blk t).view.read (Elt Ideal) (G V c) := by
  show (cfg5.win 2).cut (grid5.coords t) ((dat5 (F := Ideal) V c).after 2 t) = _
  rw [after5_2]
  unfold out5_2
  rw [View.canon_unit_zero hz]
  simp only [View.ld_unit_zero (S := S200x128) hz, View.ld_unit_zero (S := S128x10000) hz]
  obtain ⟨e0, e1, e2, e3, e4, e5⟩ := idx_facts t
  funext j
  obtain ⟨p, q, rfl⟩ : ∃ (p : Fin 200) (q : Fin 10000), j = ix2 p q := ⟨j 0, j 1, eq_ix2 j⟩
  refine (pay_apply _ _ p q).trans ?_
  show _ = G V c (((cfg5.win 2).blk t).view.emb (ix2 p q))
  unfold G mmul asMat
  refine congrArg Ideal.logistic (Finset.sum_congr rfl fun l _ => ?_)
  -- the block of `Z` is read at the result's row and at column `l`
  have h0 : ((cfg5.win 0).blk t).view.emb (ix2 p l) = ix2 ((((cfg5.win 2).blk t).view.emb (ix2 p q)) 0) l := by
    funext a; apply Fin.ext
    match a with
    | ⟨0, _⟩ => show win5_0.index t (0 : Fin 2) * 200 + 1 * p.val = win5_2.index t (0 : Fin 2) * 200 + 1 * p.val; omega
    | ⟨1, _⟩ => show win5_0.index t (1 : Fin 2) * 128 + 1 * l.val = l.val; omega
  -- `Zt` is read at row `l` and at the result's column
  have h1 : ((cfg5.win 1).blk t).view.emb (ix2 l q) = ix2 l ((((cfg5.win 2).blk t).view.emb (ix2 p q)) 1) := by
    funext a; apply Fin.ext
    match a with
    | ⟨0, _⟩ => show win5_1.index t (0 : Fin 2) * 128 + 1 * l.val = l.val; omega
    | ⟨1, _⟩ => show win5_1.index t (1 : Fin 2) * 10000 + 1 * q.val = win5_2.index t (1 : Fin 2) * 10000 + 1 * q.val; omega
  show zarr V c (((cfg5.win 0).blk t).view.emb (ix2 p l)) * ztarr V c (((cfg5.win 1).blk t).view.emb (ix2 l q)) = _
  rw [h0, h1]
  rfl

/-- An index of the result array is in point `t`'s block iff its row is among the block's 200 rows. -/
theorem mem_blk (t : Fin cfg5.N) (i : S10000x10000.Idx) :
    i ∈ ((cfg5.win 2).blk t).view.set ↔ ∀ a : Fin 2, win5_2.index t a * S200x10000.size a ≤ (i a).val ∧ (i a).val < win5_2.index t a * S200x10000.size a + S200x10000.size a := by
  show i ∈ ((View.whole main_v24).slice (win5_2.rect t)).set ↔ _
  rw [View.set_slice_whole, Rect.mem_set_unit]
  exact Iff.rfl

/-- Every row lies in the block of the point `row / 200`. -/
theorem cover (i : S10000x10000.Idx) : ∃ t : Fin cfg5.N, (cfg5.win 2).flush t = true ∧ i ∈ ((cfg5.win 2).blk t).view.set := by
  have hi0 : (i 0).val < 10000 := (i 0).isLt
  have hi1 : (i 1).val < 10000 := (i 1).isLt
  refine ⟨⟨(i 0).val / 200, by rw [show cfg5.N = 50 from N_5]; omega⟩, flush5_2 _, ?_⟩
  rw [mem_blk]
  obtain ⟨e0, e1, e2, e3, e4, e5⟩ := idx_facts ⟨(i 0).val / 200, by rw [show cfg5.N = 50 from N_5]; omega⟩
  intro a
  match a with
  | ⟨0, _⟩ => show win5_2.index _ (0 : Fin 2) * 200 ≤ (i 0).val ∧ (i 0).val < win5_2.index _ (0 : Fin 2) * 200 + 200; rw [e4]; show (i 0).val / 200 * 200 ≤ (i 0).val ∧ (i 0).val < (i 0).val / 200 * 200 + 200; omega
  | ⟨1, _⟩ => show win5_2.index _ (1 : Fin 2) * 10000 ≤ (i 1).val ∧ (i 1).val < win5_2.index _ (1 : Fin 2) * 10000 + 10000; rw [e5]; omega

end Cert.KernelIdeal.RegVal.Outer

namespace Cert.KernelIdeal.RegVal

open Idealize.ShloMosaic Idealize.ShloMosaic.TcCoe Idealize.ShloMosaic.ValueIdx Idealize.SL.Sem
open Cert.KernelIdeal Cert.KernelIdeal.Gen Gcn

variable (V : (c : Dev nD) → (b : Ref sig .tc) → Buf (Elt Ideal) ((c : Thread nD τ).loc b)) (c : Dev nD)

/-- Region 5 leaves the logistic function of the product of its two operand arrays. -/
theorem outer_value (i j : Fin 10000) :
    (dat5 (F := Ideal) V c).arrAt 2 cfg5.N (ix2 i j)
      = Ideal.logistic (mmul (asMat (V c main_v21)) (asMat (V c main_v23)) i j) := by
  rw [(dat5 (F := Ideal) V c).arrAt_eq_of_cover 2 (Outer.G V c) (fun t _ => Outer.flushed_eq V c t) (Outer.cover)]
  rfl

end Cert.KernelIdeal.RegVal

end
-- ==== Proof.KChain.lean ====
import proofs.«400994_j82781199663862_3_alg».proof.Defs
import proofs.«400994_j82781199663862_3_alg».proof.Proof.Gen.KernelIdeal.Frame
import proofs.«400994_j82781199663862_3_alg».proof.Proof.Iface
import Idealize.ShloMosaic.Lib.ValueIdx
import Idealize.ShloMosaic.Lib.Pipeline.Value
import Idealize.ShloMosaic.PureOps.Ideal.Laws
import proofs.«400994_j82781199663862_3_alg».proof.Proof.KHost
import proofs.«400994_j82781199663862_3_alg».proof.Proof.KReg0
import proofs.«400994_j82781199663862_3_alg».proof.Proof.KReg1
import proofs.«400994_j82781199663862_3_alg».proof.Proof.KReg2
import proofs.«400994_j82781199663862_3_alg».proof.Proof.KReg3
import proofs.«400994_j82781199663862_3_alg».proof.Proof.KReg4
import proofs.«400994_j82781199663862_3_alg».proof.Proof.KReg5
set_option maxRecDepth 16384

noncomputable section

/-
  The kernel program's two results as functions of its arguments: the contents of every buffer the program writes, followed
  from the launch through the host stretches and the six regions.  The dense adjacency matrix `A` is built once and read by
  regions 2, 3 and 4; the features go `x W1`, `relu (A ·) W2`, `relu (A ·) W3'` (`W3'` is `W3` with zero columns), `A ·`;
  the first result is the first 20 columns of that, the second the logistic function of its rows' inner products.
-/
namespace Cert.KernelIdeal.KValue

open Idealize.ShloMosaic Idealize.ShloMosaic.TcCoe Idealize.ShloMosaic.ValueIdx Idealize.SL.Sem
open Cert.KernelIdeal Cert.KernelIdeal.Gen Cert.KernelIdeal.RegVal Cert.KernelIdeal.HostVal Gcn

variable (m : (ℓ : Loc nD τ sig) → Buf (Elt Ideal) ℓ) (ρ : Dev nD → PrngReg) (c : Dev nD)

/-! ## The arguments, at their literal types -/

abbrev ax : S10000x512.Idx → EReal := m ((c : Thread nD τ).loc main_arg0)
abbrev aev : S320000.Idx → EReal := m ((c : Thread nD τ).loc main_arg1)
abbrev aW1 : S512x128.Idx → EReal := m ((c : Thread nD τ).loc main_arg2)
abbrev aW2 : S128x256.Idx → EReal := m ((c : Thread nD τ).loc main_arg3)
abbrev aW3 : S256x20.Idx → EReal := m ((c : Thread nD τ).loc main_arg4)
abbrev arows : S320000.Idx → BitVec 32 := m ((c : Thread nD τ).loc main_arg5)
abbrev acols : S320000.Idx → BitVec 32 := m ((c : Thread nD τ).loc main_arg6)

/-- The dense adjacency matrix of the edge list. -/
abbrev Adj : Mat 10000 10000 := adj (nodes (arows m c)) (nodes (acols m c)) (weights (aev m c))

/-! ## The arguments through the first stretch and region 0 -/

theorem hostOps0_keeps (b : Ref sig .tc) (hb : b = main_arg0 ∨ b = main_arg2 ∨ b = main_arg3 ∨ b = main_arg4) :
    W2 m ρ c (Proc.devRef .tc b) = m ((c : Thread nD τ).loc b) := by
  have h2 : W2 m ρ c (Proc.devRef .tc b) = W1 m ρ c (Proc.devRef .tc b) :=
    W2_of_ne m ρ c b (by rcases hb with rfl | rfl | rfl | rfl <;> decide)
  rw [h2]
  refine (StableHlo.after_of_forall_not_mem (b := Proc.devRef .tc b) _ _ (List.forall_iff_forall_mem.mp ?_)).trans rfl
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl <;>
  · repeat' apply And.intro
    all_goals exact StableHlo.devRef_ne_of_ne (by decide)

/-! ## The adjacency matrix, from its construction to its last reader -/

variable (h5 : InRange (arows m c)) (h6 : InRange (acols m c))

include h5 h6 in
theorem adj_W2 (r c' : Fin 10000) : W2 m ρ c (Proc.devRef .tc main_v12) (ix2 r c') = Adj m c r c' := by
  have e : W2 m ρ c (Proc.devRef .tc main_v12) = (dat0 (F := Ideal) (V1 m ρ) c).arrAt 1 cfg0.N := W2_arr m ρ c 1
  rw [e, cast_value (V1 m ρ) c (ix2 r c')]
  exact adj_value (W0 m ρ c) h5 h6 r c'

theorem adj_W5 : W5 m ρ c (Proc.devRef .tc main_v12) = W2 m ρ c (Proc.devRef .tc main_v12) := adj_kept (W2 m ρ c)

theorem adj_W6 : W6 m ρ c (Proc.devRef .tc main_v12) = W5 m ρ c (Proc.devRef .tc main_v12) :=
  W6_of_ne m ρ c main_v12 (by decide)

theorem adj_W7 : W7 m ρ c (Proc.devRef .tc main_v12) = W6 m ρ c (Proc.devRef .tc main_v12) := by
  have e : W7 m ρ c (Proc.devRef .tc main_v12) = (dat2 (F := Ideal) (V6 m ρ) c).arrAt 0 cfg2.N := W7_arr m ρ c 0
  rw [e, (dat2 (F := Ideal) (V6 m ρ) c).arrAt_in 0 rfl cfg2.N, A_eq2]

theorem adj_W8 : W8 m ρ c (Proc.devRef .tc main_v12) = W7 m ρ c (Proc.devRef .tc main_v12) := by
  have e : W8 m ρ c (Proc.devRef .tc main_v12) = (dat3 (F := Ideal) (V7 m ρ) c).arrAt 0 cfg3.N := W8_arr m ρ c 0
  rw [e, (dat3 (F := Ideal) (V7 m ρ) c).arrAt_in 0 rfl cfg3.N, A_eq3]

include h5 h6 in
/-- At the entry of regions 2, 3 and 4 the adjacency buffer holds the adjacency matrix. -/
theorem adjM :
    asMat (n := 10000) (m := 10000) (V6 m ρ c main_v12) = Adj m c
    ∧ asMat (n := 10000) (m := 10000) (V7 m ρ c main_v12) = Adj m c
    ∧ asMat (n := 10000) (m := 10000) (V8 m ρ c main_v12) = Adj m c := by
  have e6 : asMat (n := 10000) (m := 10000) (V6 m ρ c main_v12) = Adj m c := by
    funext r c'
    show W6 m ρ c (Proc.devRef .tc main_v12) (ix2 r c') = _
    rw [adj_W6, adj_W5]
    exact adj_W2 m ρ c h5 h6 r c'
  have e7 : asMat (n := 10000) (m := 10000) (V7 m ρ c main_v12) = Adj m c := by
    rw [← e6]; funext r c'
    show W7 m ρ c (Proc.devRef .tc main_v12) (ix2 r c') = W6 m ρ c (Proc.devRef .tc main_v12) (ix2 r c')
    rw [adj_W7]
  have e8 : asMat (n := 10000) (m := 10000) (V8 m ρ c main_v12) = Adj m c := by
    rw [← e7]; funext r c'
    show W8 m ρ c (Proc.devRef .tc main_v12) (ix2 r c') = W7 m ρ c (Proc.devRef .tc main_v12) (ix2 r c')
    rw [adj_W8]
  exact ⟨e6, e7, e8⟩

/-! ## The operands of regions 1, 2 and 3 -/

theorem xM : asMat (n := 10000) (m := 512) (V5 m ρ c main_v13) = asMat (ax m c) := by
  funext r k
  show after1 (W2 m ρ c) (Proc.devRef .tc main_v13) (ix2 r k) = _
  rw [x_value, hostOps0_keeps m ρ c main_arg0 (Or.inl rfl)]
  rfl

theorem w1M : asMat (n := 512) (m := 128) (V5 m ρ c main_v14) = asMat (aW1 m c) := by
  funext k q
  show after1 (W2 m ρ c) (Proc.devRef .tc main_v14) (ix2 k q) = _
  rw [w1_value, hostOps0_keeps m ρ c main_arg2 (Or.inr (Or.inl rfl))]
  rfl

theorem w2M : asMat (n := 128) (m := 256) (V6 m ρ c main_v15) = asMat (aW2 m c) := by
  funext k q
  show W6 m ρ c (Proc.devRef .tc main_v15) (ix2 k q) = _
  rw [W6_of_ne m ρ c main_v15 (by decide)]
  show after1 (W2 m ρ c) (Proc.devRef .tc main_v15) (ix2 k q) = _
  rw [w2_value, hostOps0_keeps m ρ c main_arg3 (Or.inr (Or.inr (Or.inl rfl)))]
  rfl

theorem w3M : asMat (n := 256) (m := 128) (V7 m ρ c main_v17) = padCols 128 (asMat (aW3 m c)) := by
  funext k q
  show W7 m ρ c (Proc.devRef .tc main_v17) (ix2 k q) = _
  rw [W7_of_ne m ρ c main_v17 (by decide), W6_of_ne m ρ c main_v17 (by decide)]
  show after1 (W2 m ρ c) (Proc.devRef .tc main_v17) (ix2 k q) = _
  rw [w3_value, hostOps0_keeps m ρ c main_arg4 (Or.inr (Or.inr (Or.inr rfl)))]

/-! ## The features after each region -/

/-- After region 1: `x · W1`. -/
theorem s1M : asMat (n := 10000) (m := 128) (V6 m ρ c main_v18) = mmul (asMat (ax m c)) (asMat (aW1 m c)) := by
  funext r q
  have e : W6 m ρ c (Proc.devRef .tc main_v18) = (dat1 (F := Ideal) (V5 m ρ) c).arrAt 2 cfg1.N := W6_arr m ρ c 2
  show W6 m ρ c (Proc.devRef .tc main_v18) (ix2 r q) = _
  rw [e, linear_value (V5 m ρ) c r q, xM, w1M]

include h5 h6 in
/-- After region 2: `relu (A · x W1) · W2`. -/
theorem s2M : asMat (n := 10000) (m := 256) (V7 m ρ c main_v19)
    = mmul (relu (mmul (Adj m c) (mmul (asMat (ax m c)) (asMat (aW1 m c))))) (asMat (aW2 m c)) := by
  funext r q
  have e : W7 m ρ c (Proc.devRef .tc main_v19) = (dat2 (F := Ideal) (V6 m ρ) c).arrAt 3 cfg2.N := W7_arr m ρ c 3
  show W7 m ρ c (Proc.devRef .tc main_v19) (ix2 r q) = _
  rw [e, fused2_value (V6 m ρ) c r q, (adjM m ρ c h5 h6).1, s1M, w2M]

include h5 h6 in
/-- After region 3: `relu (A · that) · W3'`. -/
theorem s3M : asMat (n := 10000) (m := 128) (V8 m ρ c main_v20)
    = mmul (relu (mmul (Adj m c) (mmul (relu (mmul (Adj m c) (mmul (asMat (ax m c)) (asMat (aW1 m c))))) (asMat (aW2 m c)))))
        (padCols 128 (asMat (aW3 m c))) := by
  funext r q
  have e : W8 m ρ c (Proc.devRef .tc main_v20) = (dat3 (F := Ideal) (V7 m ρ) c).arrAt 3 cfg3.N := W8_arr m ρ c 3
  show W8 m ρ c (Proc.devRef .tc main_v20) (ix2 r q) = _
  rw [e, fused3_value (V7 m ρ) c r q, (adjM m ρ c h5 h6).2.1, s2M m ρ c h5 h6, w3M]

include h5 h6 in
/-- After region 4: the padded embeddings. -/
theorem zM : asMat (n := 10000) (m := 128) (W9 m ρ c (Proc.devRef .tc main_v21))
    = denseEmbed (nodes (arows m c)) (nodes (acols m c)) (weights (aev m c)) (asMat (ax m c)) (asMat (aW1 m c)) (asMat (aW2 m c)) (asMat (aW3 m c)) := by
  funext r q
  have e : W9 m ρ c (Proc.devRef .tc main_v21) = (dat4 (F := Ideal) (V8 m ρ) c).arrAt 2 cfg4.N := W9_arr m ρ c 2
  show W9 m ρ c (Proc.devRef .tc main_v21) (ix2 r q) = _
  rw [e, spmm_value (V8 m ρ) c r q, (adjM m ρ c h5 h6).2.2, s3M m ρ c h5 h6]
  rfl

/-! ## The two results -/

include h5 h6 in
/-- The first result: the first 20 columns of the padded embeddings. -/
theorem z_eq (r : Fin 10000) (q : Fin 20) :
    W11 m ρ c (Proc.devRef .tc main_v22) (ix2 r q)
      = denseEmbed (nodes (arows m c)) (nodes (acols m c)) (weights (aev m c)) (asMat (ax m c)) (asMat (aW1 m c)) (asMat (aW2 m c)) (asMat (aW3 m c)) r (Fin.castLE (by decide) q) := by
  rw [W11_of_ne m ρ c main_v22 (by decide)]
  show StableHlo.after hostOps5 (W9 m ρ c) (Proc.devRef .tc main_v22) (ix2 r q) = _
  rw [z_value, ← zM m ρ c h5 h6]
  rfl

include h5 h6 in
/-- The second result: the logistic function of the inner products of the padded embeddings' rows. -/
theorem zadj_eq (i j : Fin 10000) :
    W11 m ρ c (Proc.devRef .tc main_v24) (ix2 i j)
      = gramSigmoid (denseEmbed (nodes (arows m c)) (nodes (acols m c)) (weights (aev m c)) (asMat (ax m c)) (asMat (aW1 m c)) (asMat (aW2 m c)) (asMat (aW3 m c))) i j := by
  have e : W11 m ρ c (Proc.devRef .tc main_v24) = (dat5 (F := Ideal) (V10 m ρ) c).arrAt 2 cfg5.N := W11_arr m ρ c 2
  rw [e, outer_value (V10 m ρ) c i j, ← zM m ρ c h5 h6]
  unfold gramSigmoid mmul
  refine congrArg Ideal.logistic (Finset.sum_congr rfl fun k _ => ?_)
  have e1 : asMat (n := 10000) (m := 128) (V10 m ρ c main_v21) i k
      = asMat (n := 10000) (m := 128) (W9 m ρ c (Proc.devRef .tc main_v21)) i k := by
    show StableHlo.after hostOps5 (W9 m ρ c) (Proc.devRef .tc main_v21) (ix2 i k) = _
    rw [zp_kept]
    rfl
  have e2 : asMat (n := 128) (m := 10000) (V10 m ρ c main_v23) k j
      = asMat (n := 10000) (m := 128) (W9 m ρ c (Proc.devRef .tc main_v21)) j k := by
    show StableHlo.after hostOps5 (W9 m ρ c) (Proc.devRef .tc main_v23) (ix2 k j) = _
    rw [zt_value]
    rfl
  rw [e1, e2]

end Cert.KernelIdeal.KValue

end
-- ==== Proof.RefValue.lean ====
/-
  The reference program's two results, read index by index: the node embeddings by edge aggregation, and the logistic
  function of their inner products.
-/
import proofs.«400994_j82781199663862_3_alg».proof.Defs
import proofs.«400994_j82781199663862_3_alg».proof.Proof.Gen.ReferenceIdeal.Run
import proofs.«400994_j82781199663862_3_alg».proof.Proof.Gen.ReferenceIdeal.Read
import proofs.«400994_j82781199663862_3_alg».proof.Proof.Iface
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Gcn

variable (x0 : (⟨S10000x512, .f32⟩ : BufTy).Contents (Elt Ideal)) (x1 : (⟨S320000, .f32⟩ : BufTy).Contents (Elt Ideal))
  (x2 : (⟨S512x128, .f32⟩ : BufTy).Contents (Elt Ideal)) (x3 : (⟨S128x256, .f32⟩ : BufTy).Contents (Elt Ideal))
  (x4 : (⟨S256x20, .f32⟩ : BufTy).Contents (Elt Ideal)) (x5 x6 : (⟨S320000, .i32⟩ : BufTy).Contents (Elt Ideal))

/-! ## Words -/

/-- The index normalisation `if b < 0 then b + 10000 else b` leaves a word that is not negative as it is. -/
private theorem select_of_nonneg (b c : BitVec 32) (h : 0 ≤ b.toInt) :
    Scalar.select (IntOp.cmpi .slt b 0#32) c b = b := by
  have hs : b.slt 0#32 = false := by
    simp only [BitVec.slt, BitVec.toInt_zero, decide_eq_false_iff_not, not_lt]
    exact h
  simp [Scalar.select, IntOp.cmpi, hs]

/-- The float word `1.0` is the number one. -/
private theorem ofBits_one_f32 : Ideal.ofBits .f32 0x3F800000#32 = 1 := IdealRules.sign_bit.ideal_onePat .f32

/-! ## The index columns and the weights, read at an edge -/

/-- The gather's index column at edge `e` is the source word itself: it is in range, so not negative. -/
private theorem src_word (h6 : InRange x6) (e : Fin 320000) : val_main_v7 (F := Ideal) x6 (ix2 e 0) = x6 (ix1 e) := by
  have hi : idx_main_v7 (ix2 e (0 : Fin 1)) = ix1 e := funext fun a => by match a with | ⟨0, _⟩ => rfl
  rw [val_main_v7_apply, hi, val_main_v6_apply, val_main_v3_apply, val_main_v2_apply, val_main_c_apply]
  exact select_of_nonneg _ _ (h6 e).1

/-- The scatter's index column at edge `e` is the target word. -/
private theorem dst_word (e : Fin 320000) : val_main_v12 (F := Ideal) x5 (ix2 e 0) = x5 (ix1 e) := by
  rw [val_main_v12_apply]
  exact congrArg x5 (funext fun a => by match a with | ⟨0, _⟩ => rfl)

/-- The edge weights as a column, at edge `e`. -/
private theorem weight_col (e : Fin 320000) : val_main_v1 (F := Ideal) x1 (ix2 e 0) = weights x1 e := by
  rw [val_main_v1_apply]
  exact congrArg x1 (funext fun a => by match a with | ⟨0, _⟩ => rfl)

/-! ## One round of edge aggregation -/

/-- Gather the rows of a feature matrix `S` at the edges' sources, multiply each by its edge's weight, and add the rows up
    at the edges' targets, starting from zeros: entry `(r, q)` is the sum over the edges into `r` of the weight times
    `S` at the edge's source. Stated once for every width `C`. -/
private theorem layer {C : Nat}
    (gwf : GatherDims.WF ⟨2, ![10000, C]⟩ ⟨2, ![320000, 1]⟩ ⟨2, ![320000, C]⟩ [1] [0] [] [0] [] 1 ![1, C])
    (swf : ScatterDims.WF ⟨2, ![10000, C]⟩ ⟨2, ![320000, 1]⟩ ⟨2, ![320000, C]⟩ [1] [0] [0] 1)
    (S z : FVec Ideal ⟨2, ![10000, C]⟩ .f32) (wb : FVec Ideal ⟨2, ![320000, C]⟩ .f32)
    (i5 i6 : IVec ⟨2, ![320000, 1]⟩ 32)
    (hz : ∀ i, z i = (0 : EReal)) (hw : ∀ e p, wb (ix2 e p) = weights x1 e)
    (hi5 : ∀ e, i5 (ix2 e 0) = x5 (ix1 e)) (hi6 : ∀ e, i6 (ix2 e 0) = x6 (ix1 e))
    (h5 : InRange x5) (h6 : InRange x6) (r : Fin 10000) (q : Fin C) :
    Host.scatterAdd (F := Ideal) (RowOps.scatterDims 10000 320000 C swf) z i5
        (mulf wb (Host.gather (RowOps.gatherDims 10000 320000 C gwf) S i6)) (ix2 r q)
      = agg (nodes x5) (nodes x6) (weights x1) (asMat S) r q := by
  rw [RowOps.scatterAdd_apply swf, hz, zero_add]
  unfold agg
  -- an edge's target word, read signed, is `r` exactly when the edge goes into node `r`
  have hf : (Finset.univ.filter fun e : Fin 320000 => (i5 (ix2 e 0)).toInt = (r.val : Int))
      = Finset.univ.filter fun e => nodes x5 e = r := by
    refine Finset.filter_congr fun e _ => ?_
    rw [hi5 e]
    have hv : ((nodes x5 e).val : Int) = (x5 (ix1 e)).toInt := node_val (h5 e)
    constructor
    · intro h
      exact Fin.ext (by omega)
    · intro h
      rw [← h]
      exact hv.symm
  rw [hf]
  refine Finset.sum_congr rfl fun e _ => ?_
  show wb (ix2 e q) * Host.gather (RowOps.gatherDims 10000 320000 C gwf) S i6 (ix2 e q) = _
  rw [hw, RowOps.gather_apply (by decide) gwf, hi6]
  rfl

/-! ## The three rounds of the program -/

section Round1

private theorem zero1 (i : S10000x128.Idx) : (val_main_v11 (F := Ideal) i : EReal) = 0 := by
  rw [val_main_v11_apply, val_main_cst_apply]
  exact Ideal.ofBits_zero_f32

private theorem weight1 (e : Fin 320000) (p : Fin 128) : val_main_v9 (F := Ideal) x1 (ix2 e p) = weights x1 e := by
  have hi : idx_main_v9 (ix2 e p) = ix2 e (0 : Fin 1) :=
    funext fun a => by match a with | ⟨0, _⟩ => rfl | ⟨1, _⟩ => rfl
  rw [val_main_v9_apply, hi]
  exact weight_col x1 e

/-- The first product is the matrix product of the features with the first weight matrix. -/
private theorem feat1 : asMat (val_main_v0 (F := Ideal) x0 x2) = mmul (asMat x0) (asMat x2) := by
  funext r q
  show val_main_v0 (F := Ideal) x0 x2 (ix2 r q) = ∑ l, x0 (ix2 r l) * x2 (ix2 l q)
  rw [val_main_v0_apply]
  refine Finset.sum_congr rfl fun k _ => ?_
  have hl : lidx_main_v0 (ix2 r q) k = ix2 r k := funext fun a => by match a with | ⟨0, _⟩ => rfl | ⟨1, _⟩ => rfl
  have hr : ridx_main_v0 (ix2 r q) k = ix2 k q := funext fun a => by match a with | ⟨0, _⟩ => rfl | ⟨1, _⟩ => rfl
  rw [hl, hr]

/-- The first scatter-add is the aggregation of the first product along the edges. -/
private theorem agg1 (h5 : InRange x5) (h6 : InRange x6) :
    asMat (val_main_v13 (F := Ideal) x0 x1 x2 x5 x6)
      = agg (nodes x5) (nodes x6) (weights x1) (asMat (val_main_v0 (F := Ideal) x0 x2)) := by
  funext r q
  exact layer x1 x5 x6 Facts₀.gather_S10000x128_S320000x1_S320000x128_1_0_n_n_0_1_1128_wf
    Facts₀.scatter_S10000x128_S320000x1_S320000x128_1_0_0_1_wf (val_main_v0 (F := Ideal) x0 x2) (val_main_v11 (F := Ideal))
    (val_main_v9 (F := Ideal) x1) (val_main_v12 (F := Ideal) x5) (val_main_v7 (F := Ideal) x6) zero1 (weight1 x1)
    (dst_word x5) (src_word x6 h6) h5 h6 r q

/-- The maximum with the zero broadcast is the positive part. -/
private theorem relu1 : asMat (val_main_v14 (F := Ideal) x0 x1 x2 x5 x6)
    = relu (asMat (val_main_v13 (F := Ideal) x0 x1 x2 x5 x6)) := by
  funext r q
  show val_main_v14 (F := Ideal) x0 x1 x2 x5 x6 (ix2 r q) = max (val_main_v13 (F := Ideal) x0 x1 x2 x5 x6 (ix2 r q)) 0
  rw [val_main_v14_apply, val_main_call0_v0_apply, val_main_call0_cst_apply]
  show max _ (Ideal.ofBits .f32 0x00000000#32) = _
  rw [Ideal.ofBits_zero_f32]

end Round1

section Round2

private theorem zero2 (i : S10000x256.Idx) : (val_main_v26 (F := Ideal) i : EReal) = 0 := by
  rw [val_main_v26_apply, val_main_cst_3_apply]
  exact Ideal.ofBits_zero_f32

private theorem weight2 (e : Fin 320000) (p : Fin 256) : val_main_v24 (F := Ideal) x1 (ix2 e p) = weights x1 e := by
  have hi : idx_main_v24 (ix2 e p) = ix2 e (0 : Fin 1) :=
    funext fun a => by match a with | ⟨0, _⟩ => rfl | ⟨1, _⟩ => rfl
  rw [val_main_v24_apply, hi]
  exact weight_col x1 e

/-- The second product is the matrix product of the first hidden features with the second weight matrix. -/
private theorem feat2 : asMat (val_main_v15 (F := Ideal) x0 x1 x2 x3 x5 x6)
    = mmul (asMat (val_main_v14 (F := Ideal) x0 x1 x2 x5 x6)) (asMat x3) := by
  funext r q
  show val_main_v15 (F := Ideal) x0 x1 x2 x3 x5 x6 (ix2 r q)
    = ∑ l, val_main_v14 (F := Ideal) x0 x1 x2 x5 x6 (ix2 r l) * x3 (ix2 l q)
  rw [val_main_v15_apply]
  refine Finset.sum_congr rfl fun k _ => ?_
  have hl : lidx_main_v15 (ix2 r q) k = ix2 r k := funext fun a => by match a with | ⟨0, _⟩ => rfl | ⟨1, _⟩ => rfl
  have hr : ridx_main_v15 (ix2 r q) k = ix2 k q := funext fun a => by match a with | ⟨0, _⟩ => rfl | ⟨1, _⟩ => rfl
  rw [hl, hr]

/-- The second scatter-add is the aggregation of the second product along the edges. -/
private theorem agg2 (h5 : InRange x5) (h6 : InRange x6) :
    asMat (val_main_v28 (F := Ideal) x0 x1 x2 x3 x5 x6)
      = agg (nodes x5) (nodes x6) (weights x1) (asMat (val_main_v15 (F := Ideal) x0 x1 x2 x3 x5 x6)) := by
  funext r q
  exact layer x1 x5 x6 Facts₀.gather_S10000x256_S320000x1_S320000x256_1_0_n_n_0_1_1256_wf
    Facts₀.scatter_S10000x256_S320000x1_S320000x256_1_0_0_1_wf (val_main_v15 (F := Ideal) x0 x1 x2 x3 x5 x6)
    (val_main_v26 (F := Ideal)) (val_main_v24 (F := Ideal) x1) (val_main_v27 (F := Ideal) x5) (val_main_v22 (F := Ideal) x6)
    zero2 (weight2 x1) (dst_word x5) (src_word x6 h6) h5 h6 r q

private theorem relu2 : asMat (val_main_v29 (F := Ideal) x0 x1 x2 x3 x5 x6)
    = relu (asMat (val_main_v28 (F := Ideal) x0 x1 x2 x3 x5 x6)) := by
  funext r q
  show val_main_v29 (F := Ideal) x0 x1 x2 x3 x5 x6 (ix2 r q)
    = max (val_main_v28 (F := Ideal) x0 x1 x2 x3 x5 x6 (ix2 r q)) 0
  rw [val_main_v29_apply, val_main_call1_v0_apply, val_main_call1_cst_apply]
  show max _ (Ideal.ofBits .f32 0x00000000#32) = _
  rw [Ideal.ofBits_zero_f32]

end Round2

section Round3

private theorem zero3 (i : S10000x20.Idx) : (val_main_v41 (F := Ideal) i : EReal) = 0 := by
  rw [val_main_v41_apply, val_main_cst_6_apply]
  exact Ideal.ofBits_zero_f32

private theorem weight3 (e : Fin 320000) (p : Fin 20) : val_main_v39 (F := Ideal) x1 (ix2 e p) = weights x1 e := by
  have hi : idx_main_v39 (ix2 e p) = ix2 e (0 : Fin 1) :=
    funext fun a => by match a with | ⟨0, _⟩ => rfl | ⟨1, _⟩ => rfl
  rw [val_main_v39_apply, hi]
  exact weight_col x1 e

/-- The third product is the matrix product of the second hidden features with the third weight matrix. -/
private theorem feat3 : asMat (val_main_v30 (F := Ideal) x0 x1 x2 x3 x4 x5 x6)
    = mmul (asMat (val_main_v29 (F := Ideal) x0 x1 x2 x3 x5 x6)) (asMat x4) := by
  funext r q
  show val_main_v30 (F := Ideal) x0 x1 x2 x3 x4 x5 x6 (ix2 r q)
    = ∑ l, val_main_v29 (F := Ideal) x0 x1 x2 x3 x5 x6 (ix2 r l) * x4 (ix2 l q)
  rw [val_main_v30_apply]
  refine Finset.sum_congr rfl fun k _ => ?_
  have hl : lidx_main_v30 (ix2 r q) k = ix2 r k := funext fun a => by match a with | ⟨0, _⟩ => rfl | ⟨1, _⟩ => rfl
  have hr : ridx_main_v30 (ix2 r q) k = ix2 k q := funext fun a => by match a with | ⟨0, _⟩ => rfl | ⟨1, _⟩ => rfl
  rw [hl, hr]

/-- The third scatter-add is the aggregation of the third product along the edges. -/
private theorem agg3 (h5 : InRange x5) (h6 : InRange x6) :
    asMat (val_main_v43 (F := Ideal) x0 x1 x2 x3 x4 x5 x6)
      = agg (nodes x5) (nodes x6) (weights x1) (asMat (val_main_v30 (F := Ideal) x0 x1 x2 x3 x4 x5 x6)) := by
  funext r q
  exact layer x1 x5 x6 Facts₀.gather_S10000x20_S320000x1_S320000x20_1_0_n_n_0_1_120_wf
    Facts₀.scatter_S10000x20_S320000x1_S320000x20_1_0_0_1_wf (val_main_v30 (F := Ideal) x0 x1 x2 x3 x4 x5 x6)
    (val_main_v41 (F := Ideal)) (val_main_v39 (F := Ideal) x1) (val_main_v42 (F := Ideal) x5) (val_main_v37 (F := Ideal) x6)
    zero3 (weight3 x1) (dst_word x5) (src_word x6 h6) h5 h6 r q

end Round3

/-! ## The two results -/

/-- The reference's first result is the node embedding: three rounds of edge aggregation (a row gather at the edges'
    sources, the weights multiplied in, a row scatter-add at the edges' targets), each after a product with a weight
    matrix, the first two followed by the positive part. -/
theorem embed_eq (h5 : InRange x5) (h6 : InRange x6) (r : Fin 10000) (q : Fin 20) :
    val_main_v43 (F := Ideal) x0 x1 x2 x3 x4 x5 x6 (ix2 r q)
      = embed (nodes x5) (nodes x6) (weights x1) (asMat x0) (asMat x2) (asMat x3) (asMat x4) r q := by
  show asMat (val_main_v43 (F := Ideal) x0 x1 x2 x3 x4 x5 x6) r q = _
  rw [agg3 x0 x1 x2 x3 x4 x5 x6 h5 h6, feat3, relu2, agg2 x0 x1 x2 x3 x5 x6 h5 h6, feat2, relu1,
    agg1 x0 x1 x2 x5 x6 h5 h6, feat1]
  rfl

/-- The reference's second result is the logistic function of the embeddings' inner products. -/
theorem gram_eq (h5 : InRange x5) (h6 : InRange x6) (i j : Fin 10000) :
    val_main_v51 (F := Ideal) x0 x1 x2 x3 x4 x5 x6 (ix2 i j)
      = gramSigmoid (embed (nodes x5) (nodes x6) (weights x1) (asMat x0) (asMat x2) (asMat x3) (asMat x4)) i j := by
  -- the inner product of rows `i` and `j` of the embedding: the second factor is read through the transpose
  have hsum : (∑ k : Fin 20, val_main_v43 (F := Ideal) x0 x1 x2 x3 x4 x5 x6 (lidx_main_v45 (ix2 i j) k)
        * val_main_v44 (F := Ideal) x0 x1 x2 x3 x4 x5 x6 (ridx_main_v45 (ix2 i j) k))
      = ∑ k : Fin 20, embed (nodes x5) (nodes x6) (weights x1) (asMat x0) (asMat x2) (asMat x3) (asMat x4) i k
        * embed (nodes x5) (nodes x6) (weights x1) (asMat x0) (asMat x2) (asMat x3) (asMat x4) j k := by
    refine Finset.sum_congr rfl fun k _ => ?_
    have hl : lidx_main_v45 (ix2 i j) k = ix2 i k := funext fun a => by match a with | ⟨0, _⟩ => rfl | ⟨1, _⟩ => rfl
    have hr : idx_main_v44 (ridx_main_v45 (ix2 i j) k) = ix2 j k :=
      funext fun a => by match a with | ⟨0, _⟩ => rfl | ⟨1, _⟩ => rfl
    rw [val_main_v44_apply, hl, hr, embed_eq x0 x1 x2 x3 x4 x5 x6 h5 h6 i k, embed_eq x0 x1 x2 x3 x4 x5 x6 h5 h6 j k]
  rw [val_main_v51_apply, val_main_v50_apply, val_main_cst_8_apply, val_main_v49_apply, val_main_v48_apply,
    val_main_cst_7_apply, val_main_v47_apply, val_main_v46_apply, val_main_v45_apply, hsum]
  -- `1 / (1 + exp (-s))` is the logistic function of `s`, by definition
  simp only [Ideal.hostDivf_def, Ideal.addf_def, Ideal.hostUnary_exp_def, Ideal.hostNegf_def, Ideal.negf_def,
    Ideal.ofBits_def, ofBits_one_f32]
  rfl

end Cert.ReferenceIdeal.RefValue

end
-- ==== Proof.PreFacts.lean ====
/-
  What the precondition says of the inputs: every entry of the five float inputs is a real number, and every entry of
  the two endpoint columns, read signed, lies in `[0, 10000)`.
-/
import proofs.«400994_j82781199663862_3_alg».proof.Defs
import proofs.«400994_j82781199663862_3_alg».proof.Proof.Gen.Pre_finite_inputs
import proofs.«400994_j82781199663862_3_alg».proof.Proof.Iface
import Idealize.ShloMosaic.Lib.ValueIdx
import Idealize.ShloMosaic.Lib.ReduceAll
import Idealize.ShloMosaic.Lib.StableHlo.Predicate

set_option maxRecDepth 16384

noncomputable section

namespace Cert.PreFacts

open Idealize.ShloMosaic Idealize.ShloMosaic.ValueIdx Cert.Pre_finite_inputs Gcn

/-- The scalar shape has one index. -/
private instance subsingleton_scalarIdx : Subsingleton S_.Idx := ⟨fun a b => funext fun d => d.elim0⟩

/-- The pattern `0x7F800000` denotes `+∞`. -/
private theorem inf_eq_top : Ideal.ofBits .f32 0x7F800000#32 = ⊤ := by simp [Ideal.ofBits, Ideal.ieee]

/-- An extended real whose absolute value `max x (-x)` tests below `+∞` is neither infinity: it is a real number. -/
private theorem isReal_of_abs_lt_inf (x : Ideal .f32)
    (h : FloatOps.cmpf .olt (FloatOps.hostAbsf x) (FloatOps.ofBits (F := Ideal) .f32 0x7F800000#32) = 1#1) : IsReal x := by
  change Ideal.cmp .olt (max (x : EReal) (-(x : EReal))) (Ideal.ofBits .f32 0x7F800000#32) = 1#1 at h
  rw [inf_eq_top] at h
  unfold Ideal.cmp at h
  rw [StableHlo.Predicate.ofBool_eq_one_iff] at h
  simp only [decide_eq_true_eq, max_lt_iff] at h
  induction x using EReal.rec with
  | bot => simp at h
  | coe r => exact ⟨r, rfl⟩
  | top => simp at h

/-- A word that tests `≥ 0` and `< 10000`, both signed, reads signed as a number of `[0, 10000)`. -/
private theorem range_of_cmp (w : BitVec 32)
    (h : IntOp.andi (IntOp.cmpi .sge w 0#32) (IntOp.cmpi .slt w 10000#32) = 1#1) : 0 ≤ w.toInt ∧ w.toInt < 10000 := by
  obtain ⟨h0, h1⟩ := IntOp.andi_eq_one.1 h
  rw [IntOp.cmpi_sge] at h0
  rw [IntOp.cmpi_slt] at h1
  have z : (0#32 : BitVec 32).toInt = 0 := by decide
  have t : (10000#32 : BitVec 32).toInt = 10000 := by decide
  omega

set_option maxHeartbeats 400000 in
theorem of_pre (x0 : FVec Ideal S10000x512 .f32) (x1 : FVec Ideal S320000 .f32) (x2 : FVec Ideal S512x128 .f32)
    (x3 : FVec Ideal S128x256 .f32) (x4 : FVec Ideal S256x20 .f32) (x5 x6 : IVec S320000 32)
    (h : fn (F := Ideal) x0 x1 x2 x3 x4 x5 x6 = fun _ => 1#1) :
    AllReal x0 ∧ AllReal x1 ∧ AllReal x2 ∧ AllReal x3 ∧ AllReal x4 ∧ InRange x5 ∧ InRange x6 := by
  have e := congrFun h ValueIdx.ix0
  dsimp only [fn, fn_part1, fn_part2] at e
  -- the conjunction of the seven all-reductions, split at the one scalar index
  have split : ∀ a b : IVec S_ 1, andi a b ix0 = 1#1 → a ix0 = 1#1 ∧ b ix0 = 1#1 :=
    fun a b hab => IntOp.andi_eq_one.1 hab
  obtain ⟨e, e6⟩ := split _ _ e
  obtain ⟨e, e5⟩ := split _ _ e
  obtain ⟨e, e4⟩ := split _ _ e
  obtain ⟨e, e3⟩ := split _ _ e
  obtain ⟨e, e2⟩ := split _ _ e
  obtain ⟨e0, e1⟩ := split _ _ e
  -- an all-reduction that is 1 had a 1 at every entry; at an entry the test is |x| < +∞, or 0 ≤ w < 10000
  refine ⟨fun i => isReal_of_abs_lt_inf _ (Host.reduce_andi_all _ _ _ _ _ e0 i),
    fun i => isReal_of_abs_lt_inf _ (Host.reduce_andi_all _ _ _ _ _ e1 i),
    fun i => isReal_of_abs_lt_inf _ (Host.reduce_andi_all _ _ _ _ _ e2 i),
    fun i => isReal_of_abs_lt_inf _ (Host.reduce_andi_all _ _ _ _ _ e3 i),
    fun i => isReal_of_abs_lt_inf _ (Host.reduce_andi_all _ _ _ _ _ e4 i),
    fun k => range_of_cmp _ (Host.reduce_andi_all _ _ _ _ _ e5 (ix1 k)),
    fun k => range_of_cmp _ (Host.reduce_andi_all _ _ _ _ _ e6 (ix1 k))⟩

end Cert.PreFacts

end
-- ==== Proof.lean ====
/-
  The certificate: a three-layer graph convolution over an edge list, computed by six TensorCore kernels through a dense
  adjacency matrix, equals its reference, which aggregates along the edges, on the extended reals.

  The kernel program builds the dense adjacency matrix `A` of the edge list `(rows, cols, edge_vals)` by a scatter-add
  at the flat index `rows · 10000 + cols`, and computes `z' = A · (relu (A · (relu (A · (x W1)) W2)) W3')`, where `W3'`
  is `W3` widened by zero columns; its results are the first 20 columns of `z'` and the logistic function of
  `z' z'ᵀ`.  The reference computes `z = agg (relu (agg (relu (agg (x W1))) W2) W3)` and the logistic function of
  `z zᵀ`, where `agg S` gathers the rows of `S` at `cols`, multiplies by the edge weights and adds them up at `rows`.

  Under the precondition every float input is real and every endpoint is a node (`0 ≤ rows, cols < 10000`).  Then the
  flat index does not wrap and names the cell `(rows, cols)`; `A · S = agg S` by the distributive law, which needs
  real weights and features (each layer's features are real because the inputs are); zero columns of `W3'` give zero
  columns of `z'`, which add nothing to the inner products.  The changes of float format in the kernels are the
  identity on the extended reals, so the ledger of the idealization is empty.
-/
import proofs.«400994_j82781199663862_3_alg».proof.Defs
import proofs.«400994_j82781199663862_3_alg».proof.Proof.Gen.Kernel
import proofs.«400994_j82781199663862_3_alg».proof.Proof.Gen.Kernel.Frame
import proofs.«400994_j82781199663862_3_alg».proof.Proof.Gen.KernelIdeal
import proofs.«400994_j82781199663862_3_alg».proof.Proof.Gen.KernelIdeal.Frame
import proofs.«400994_j82781199663862_3_alg».proof.Proof.Gen.ReferenceIdeal
import proofs.«400994_j82781199663862_3_alg».proof.Proof.Gen.ReferenceIdeal.Run
import proofs.«400994_j82781199663862_3_alg».proof.Proof.Gen.ReferenceIdeal.Read
import proofs.«400994_j82781199663862_3_alg».proof.Proof.Gen.Pre_finite_inputs
import proofs.«400994_j82781199663862_3_alg».proof.Proof.KRun
import proofs.«400994_j82781199663862_3_alg».proof.Proof.KChain
import proofs.«400994_j82781199663862_3_alg».proof.Proof.RefValue
import proofs.«400994_j82781199663862_3_alg».proof.Proof.PreFacts
import Idealize.ShloMosaic.Adequacy
import Idealize.ShloMosaic.Init

set_option maxRecDepth 16384

noncomputable section

namespace Cert.Proof

open Idealize.ShloMosaic Idealize.ShloMosaic.ValueIdx Idealize.SL.Sem Gcn

/-! ## The two results as functions of the seven argument arrays -/

section Results
variable (a0 : (⟨2, ![10000, 512]⟩ : Shape).Idx → EReal) (a1 : (⟨1, ![320000]⟩ : Shape).Idx → EReal)
  (a2 : (⟨2, ![512, 128]⟩ : Shape).Idx → EReal) (a3 : (⟨2, ![128, 256]⟩ : Shape).Idx → EReal)
  (a4 : (⟨2, ![256, 20]⟩ : Shape).Idx → EReal) (a5 a6 : (⟨1, ![320000]⟩ : Shape).Idx → BitVec 32)

/-- The node embeddings. -/
def zOf : (⟨2, ![10000, 20]⟩ : Shape).Idx → EReal := fun i =>
  embed (nodes a5) (nodes a6) (weights a1) (asMat a0) (asMat a2) (asMat a3) (asMat a4) (i 0) (i 1)

/-- The logistic function of the embeddings' inner products. -/
def zAdjOf : (⟨2, ![10000, 10000]⟩ : Shape).Idx → EReal := fun i =>
  gramSigmoid (embed (nodes a5) (nodes a6) (weights a1) (asMat a0) (asMat a2) (asMat a3) (asMat a4)) (i 0) (i 1)

end Results

/-! ## The frames -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-! ## The kernel program's results -/

section Kernel
open Cert.KernelIdeal

variable (m : (ℓ : Loc nD τ sig) → Buf (Elt Ideal) ℓ) (c : Dev nD)

/-- What the precondition gives of the kernel program's launch memory. -/
theorem pre_facts (hpre : Cert.Pre_KernelIdeal m) :
    AllReal (KValue.ax m c) ∧ AllReal (KValue.aev m c) ∧ AllReal (KValue.aW1 m c) ∧ AllReal (KValue.aW2 m c)
      ∧ AllReal (KValue.aW3 m c) ∧ InRange (KValue.arows m c) ∧ InRange (KValue.acols m c) :=
  Cert.PreFacts.of_pre _ _ _ _ _ _ _ (hpre c)

/-- The kernel program's first result is the reference's embedding of its arguments: the dense network is the edge
    network with zero columns on the right, and the slice keeps the first 20 columns. -/
theorem kernel_z (ρ : Dev nD → PrngReg) (hpre : Cert.Pre_KernelIdeal m) :
    Gen.W11 m ρ c (Proc.devRef .tc main_v22)
      = zOf (KValue.ax m c) (KValue.aev m c) (KValue.aW1 m c) (KValue.aW2 m c) (KValue.aW3 m c) (KValue.arows m c) (KValue.acols m c) := by
  obtain ⟨h0, h1, h2, h3, h4, h5, h6⟩ := pre_facts m c hpre
  funext i
  obtain ⟨r, q, rfl⟩ : ∃ (r : Fin 10000) (q : Fin 20), i = ix2 r q := ⟨i 0, i 1, eq_ix2 i⟩
  rw [KValue.z_eq m ρ c h5 h6 r q,
    denseEmbed_eq _ _ (weights_isReal h1) (asMat_isReal h0) (asMat_isReal h2) (asMat_isReal h3) (asMat_isReal h4)]
  unfold padCols zOf
  rw [dif_pos (show (Fin.castLE (by decide : 20 ≤ 128) q).val < 20 from q.isLt)]
  rfl

/-- The kernel program's second result is the reference's: zero columns add nothing to the inner products. -/
theorem kernel_zadj (ρ : Dev nD → PrngReg) (hpre : Cert.Pre_KernelIdeal m) :
    Gen.W11 m ρ c (Proc.devRef .tc main_v24)
      = zAdjOf (KValue.ax m c) (KValue.aev m c) (KValue.aW1 m c) (KValue.aW2 m c) (KValue.aW3 m c) (KValue.arows m c) (KValue.acols m c) := by
  obtain ⟨h0, h1, h2, h3, h4, h5, h6⟩ := pre_facts m c hpre
  funext i
  obtain ⟨r, q, rfl⟩ : ∃ (r : Fin 10000) (q : Fin 10000), i = ix2 r q := ⟨i 0, i 1, eq_ix2 i⟩
  rw [KValue.zadj_eq m ρ c h5 h6 r q,
    gramSigmoid_denseEmbed _ _ (weights_isReal h1) (asMat_isReal h0) (asMat_isReal h2) (asMat_isReal h3) (asMat_isReal h4)]
  rfl

end Kernel

/-! ## The reference program's results -/

section Reference
open Cert.ReferenceIdeal

variable (x0 : (⟨S10000x512, .f32⟩ : BufTy).Contents (Elt Ideal)) (x1 : (⟨S320000, .f32⟩ : BufTy).Contents (Elt Ideal))
  (x2 : (⟨S512x128, .f32⟩ : BufTy).Contents (Elt Ideal)) (x3 : (⟨S128x256, .f32⟩ : BufTy).Contents (Elt Ideal))
  (x4 : (⟨S256x20, .f32⟩ : BufTy).Contents (Elt Ideal)) (x5 x6 : (⟨S320000, .i32⟩ : BufTy).Contents (Elt Ideal))

theorem ref_z (h5 : InRange x5) (h6 : InRange x6) :
    Read.val_main_v43 (F := Ideal) x0 x1 x2 x3 x4 x5 x6 = zOf x0 x1 x2 x3 x4 x5 x6 := by
  funext i
  obtain ⟨r, q, rfl⟩ : ∃ (r : Fin 10000) (q : Fin 20), i = ix2 r q := ⟨i 0, i 1, eq_ix2 i⟩
  exact RefValue.embed_eq x0 x1 x2 x3 x4 x5 x6 h5 h6 r q

theorem ref_zadj (h5 : InRange x5) (h6 : InRange x6) :
    Read.val_main_v51 (F := Ideal) x0 x1 x2 x3 x4 x5 x6 = zAdjOf x0 x1 x2 x3 x4 x5 x6 := by
  funext i
  obtain ⟨r, q, rfl⟩ : ∃ (r : Fin 10000) (q : Fin 10000), i = ix2 r q := ⟨i 0, i 1, eq_ix2 i⟩
  exact RefValue.gram_eq x0 x1 x2 x3 x4 x5 x6 h5 h6 r q

end Reference

/-! ## The claims -/

/-- From memories agreeing on the arguments both programs end with the same two results: each side's result is the same
    function (`zOf`, `zAdjOf`) of the arguments. -/
theorem algebraic : Cert.algebraic_KernelIdeal_ReferenceIdeal := by
  intro m ρ m' ρ' hpre hagree
  refine ⟨fun c => zOf (KernelIdeal.KValue.ax m c) (KernelIdeal.KValue.aev m c) (KernelIdeal.KValue.aW1 m c)
      (KernelIdeal.KValue.aW2 m c) (KernelIdeal.KValue.aW3 m c) (KernelIdeal.KValue.arows m c) (KernelIdeal.KValue.acols m c),
    fun c => zAdjOf (KernelIdeal.KValue.ax m c) (KernelIdeal.KValue.aev m c) (KernelIdeal.KValue.aW1 m c)
      (KernelIdeal.KValue.aW2 m c) (KernelIdeal.KValue.aW3 m c) (KernelIdeal.KValue.arows m c) (KernelIdeal.KValue.acols m c),
    ?_, ?_⟩
  · exact (θ_run Cert.KernelIdeal.defs _ _).mono
      (fun r h c => ⟨(h c).1.trans (kernel_z m c ρ hpre), (h c).2.1.trans (kernel_zadj m c ρ hpre), (h c).2.2⟩)
      (Cert.KernelIdeal.KRun.run_named (F := Ideal) m ρ)
  · refine (θ_run Cert.ReferenceIdeal.defs _ _).mono (fun r h c => ?_) (Cert.ReferenceIdeal.Value.run (F := Ideal) m' ρ')
    obtain ⟨-, -, -, -, -, h5, h6⟩ := pre_facts m c hpre
    obtain ⟨g0, g1, g2, g3, g4, g5, g6⟩ := hagree c
    refine ⟨(h c).1.trans ?_, (h c).2.1.trans ?_, (h c).2.2⟩
    · rw [g0, g1, g2, g3, g4, g5, g6]
      exact ref_z _ _ _ _ _ _ _ h5 h6
    · rw [Cert.ReferenceIdeal.Read.val_main_v51_eq, g0, g1, g2, g3, g4, g5, g6]
      exact ref_zadj _ _ _ _ _ _ _ h5 h6

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
